-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S_ : Shape := ⟨0, ![]⟩

class Facts : Prop where
  bcast_S_S128x3072 : S_.BroadcastsInDim S128x3072 (![] : Fin 0 → Fin S128x3072.rank)
  reducesTo_S128x3072_S_d0_1 : S128x3072.ReducesTo [0, 1] S_
  h_S_ : 0 < S_.numel
  bcast_S_S128x32x3072 : S_.BroadcastsInDim S128x32x3072 (![] : Fin 0 → Fin S128x32x3072.rank)
  reducesTo_S128x32x3072_S_d0_1_2 : S128x32x3072.ReducesTo [0, 1, 2] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x3072 .f32) (main_arg13 : FVec F S3072 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x3072 .f32 := Host.absf main_arg12
  let main_cst_22 : FVec F S_ .f32 := constant S_ .f32 0x7F800000#32
  let main_v60 : FVec F S1024x3072 .f32 := broadcastInDim S1024x3072 ![] bcast_S_S1024x3072 main_cst_22
  let main_v61 : IVec S1024x3072 1 := cmpf .olt main_v59 main_v60
  let main_c_23 : IVec S_ 1 := constantI S_ 1 1#1
  let main_v62 : IVec S_ 1 := (fun x v => Host.reduce IntOp.andi x v reducesTo_S1024x3072_S_d0_1 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_v63 main_v67

def fn_part2 {F : FTy → Type} [FloatOps F] (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1024 .f32 := Host.absf main_arg8
  let main_cst_14 : FVec F S_ .f32 := constant S_ .f32 0x7F800000#32
  let main_v40 : FVec F S32x1024 .f32 := broadcastInDim S32x1024 ![] bcast_S_S32x1024 main_cst_14
  let main_v41 : IVec S32x1024 1 := cmpf .olt main_v39 main_v40
  let main_c_15 : IVec S_ 1 := constantI S_ 1 1#1
  let main_v42 : IVec S_ 1 := (fun x v => Host.reduce IntOp.andi x v reducesTo_S32x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x32 .f32) (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x3072 .f32) (main_arg1 : FVec F S128x32x3072 .f32) (main_arg2 : FVec F S3072x1024 .f32) (main_arg3 : FVec F S1024 .f32) (main_arg4 : FVec F S1024x1024 .f32) (main_arg5 : FVec F S1024 .f32) (main_arg6 : FVec F S1024x32 .f32) (main_arg7 : FVec F S32 .f32) (main_arg8 : FVec F S32x1024 .f32) (main_arg9 : FVec F S1024 .f32) (main_arg10 : FVec F S1024x1024 .f32) (main_arg11 : FVec F S1024 .f32) (main_arg12 : FVec F S1024x3072 .f32) (main_arg13 : FVec F S3072 .f32) : IVec S_ 1 :=
  let main_v0 : FVec F S128x3072 .f32 := Host.absf main_arg0
  let main_cst : FVec F S_ .f32 := constant S_ .f32 0x7F800000#32
  let main_v1 : FVec F S128x3072 .f32 := broadcastInDim S128x3072 ![] bcast_S_S128x3072 main_cst
  let main_v2 : IVec S128x3072 1 := cmpf .olt main_v0 main_v1
  let main_c : IVec S_ 1 := constantI S_ 1 1#1
  let main_v3 : IVec S_ 1 := (fun x v => Host.reduce IntOp.andi x v reducesTo_S128x3072_S_d0_1 h_S_) main_v2 main_c
  let main_v4 : FVec F S128x32x3072 .f32 := Host.absf main_arg1
  let main_cst_0 : FVec F S_ .f32 := constant S_ .f32 0x7F800000#32
  let main_v5 : FVec F S128x32x3072 .f32 := broadcastInDim S128x32x3072 ![] bcast_S_S128x32x3072 main_cst_0
  let main_v6 : IVec S128x32x3072 1 := cmpf .olt main_v4 main_v5
  let main_c_1 : IVec S_ 1 := constantI S_ 1 1#1
  let main_v7 : IVec S_ 1 := (fun x v => Host.reduce IntOp.andi x v reducesTo_S128x32x3072_S_d0_1_2 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S128x1 : Shape := ⟨2, ![128, 1]⟩
abbrev S8x3072 : Shape := ⟨2, ![8, 3072]⟩
abbrev S8x32x3072 : Shape := ⟨3, ![8, 32, 3072]⟩
abbrev S8x1 : Shape := ⟨2, ![8, 1]⟩
abbrev S8x1024 : Shape := ⟨2, ![8, 1024]⟩
abbrev S1x1024 : Shape := ⟨2, ![1, 1024]⟩
abbrev S8x32 : Shape := ⟨2, ![8, 32]⟩
abbrev S1x32 : Shape := ⟨2, ![1, 32]⟩
abbrev S256x3072 : Shape := ⟨2, ![256, 3072]⟩
abbrev S256x1024 : Shape := ⟨2, ![256, 1024]⟩
abbrev S256x32 : Shape := ⟨2, ![256, 32]⟩
abbrev S1x3072 : Shape := ⟨2, ![1, 3072]⟩
abbrev S8x32x32 : Shape := ⟨3, ![8, 32, 32]⟩
abbrev S8x1x32 : Shape := ⟨3, ![8, 1, 32]⟩
abbrev S8x1x1024 : Shape := ⟨3, ![8, 1, 1024]⟩
abbrev S8x32x1024 : Shape := ⟨3, ![8, 32, 1024]⟩
abbrev S8x1x3072 : Shape := ⟨3, ![8, 1, 3072]⟩
abbrev S8 : Shape := ⟨1, ![8]⟩
abbrev S_ : Shape := ⟨0, ![]⟩

abbrev nBuf : Space → Nat
  | .hbm => 25
  | .vmem => 17
  | .smem => 0
  | _ => 0

abbrev bufTy : (tb : Table) → Fin (tcTables nBuf tb) → BufTy
  | .hbm, ⟨0, _⟩ => ⟨S128x3072, .f32⟩
  | .hbm, ⟨1, _⟩ => ⟨S128x32x3072, .f32⟩
  | .hbm, ⟨2, _⟩ => ⟨S3072x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S32x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x3072, .f32⟩
  | .hbm, ⟨13, _⟩ => ⟨S3072, .f32⟩
  | .hbm, ⟨14, _⟩ => ⟨S3072x1024, .bf16⟩
  | .hbm, ⟨15, _⟩ => ⟨S1024x1024, .bf16⟩
  | .hbm, ⟨16, _⟩ => ⟨S1024x32, .bf16⟩
  | .hbm, ⟨17, _⟩ => ⟨S32x1024, .bf16⟩
  | .hbm, ⟨18, _⟩ => ⟨S1024x1024, .bf16⟩
  | .hbm, ⟨19, _⟩ => ⟨S1024x3072, .bf16⟩
  | .hbm, ⟨20, _⟩ => ⟨S128x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x3072, .f32⟩
  | .local _ .vmem, ⟨1, _⟩ => ⟨S8x3072, .f32⟩
  | .local _ .vmem, ⟨2, _⟩ => ⟨S8x32x3072, .f32⟩
  | .local _ .vmem, ⟨3, _⟩ => ⟨S3072x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1024x32, .bf16⟩
  | .local _ .vmem, ⟨8, _⟩ => ⟨S32, .f32⟩
  | .local _ .vmem, ⟨9, _⟩ => ⟨S32x1024, .bf16⟩
  | .local _ .vmem, ⟨10, _⟩ => ⟨S1024, .f32⟩
  | .local _ .vmem, ⟨11, _⟩ => ⟨S1024x1024, .bf16⟩
  | .local _ .vmem, ⟨12, _⟩ => ⟨S1024, .f32⟩
  | .local _ .vmem, ⟨13, _⟩ => ⟨S1024x3072, .bf16⟩
  | .local _ .vmem, ⟨14, _⟩ => ⟨S3072, .f32⟩
  | .local _ .vmem, ⟨15, _⟩ => ⟨S8x1, .f32⟩
  | .local _ .vmem, ⟨16, _⟩ => ⟨S8x1, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S8x3072_S8x3072_0_0 : ∀ a, (![0, 0] : Fin 2 → Nat) a + S8x3072.size a ≤ S8x3072.size a
  h_S8x3072 : 0 < S8x3072.numel
  inb_S8x32x3072_S8x32x3072_0_0_0 : ∀ a, (![0, 0, 0] : Fin 3 → Nat) a + S8x32x3072.size a ≤ S8x32x3072.size a
  h_S8x32x3072 : 0 < S8x32x3072.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024_S1024_0 : ∀ a, (![0] : Fin 1 → Nat) a + S1024.size a ≤ S1024.size a
  h_S1024 : 0 < S1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32_S32_0 : ∀ a, (![0] : Fin 1 → Nat) a + S32.size a ≤ S32.size a
  h_S32 : 0 < S32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S1024_S1x1024 : S1024.ShapeCasts S1x1024
  broadcasts_S1x1024_S8x1024 : S1x1024.Broadcasts S8x1024
  shapeCasts_S32_S1x32 : S32.ShapeCasts S1x32
  broadcasts_S1x32_S8x32 : S1x32.Broadcasts S8x32
  shapeCasts_S8x32x3072_S256x3072 : S8x32x3072.ShapeCasts S256x3072
  broadcasts_S1x1024_S256x1024 : S1x1024.Broadcasts S256x1024
  broadcasts_S1x32_S256x32 : S1x32.Broadcasts S256x32
  natLt_1_32 : 1 < 32
  shapeCasts_S3072_S1x3072 : S3072.ShapeCasts S1x3072
  broadcasts_S1x3072_S8x3072 : S1x3072.Broadcasts S8x3072
  shapeCasts_S256x32_S8x32x32 : S256x32.ShapeCasts S8x32x32
  shapeCasts_S8x32_S8x1x32 : S8x32.ShapeCasts S8x1x32
  broadcasts_S8x1x32_S8x32x32 : S8x1x32.Broadcasts S8x32x32
  shapeCasts_S8x32x32_S256x32 : S8x32x32.ShapeCasts S256x32
  shapeCasts_S8x1024_S8x1x1024 : S8x1024.ShapeCasts S8x1x1024
  shapeCasts_S8x1x1024_S8x1x1024 : S8x1x1024.ShapeCasts S8x1x1024
  broadcasts_S8x1x1024_S8x32x1024 : S8x1x1024.Broadcasts S8x32x1024
  shapeCasts_S8x32x1024_S256x1024 : S8x32x1024.ShapeCasts S256x1024
  shapeCasts_S256x3072_S8x32x3072 : S256x3072.ShapeCasts S8x32x3072
  shapeCasts_S8x3072_S8x1x3072 : S8x3072.ShapeCasts S8x1x3072
  broadcasts_S8x1x3072_S8x32x3072 : S8x1x3072.Broadcasts S8x32x3072
  reduces_S8x32x3072_S8x32 : S8x32x3072.Reduces [2] S8x32
  reduces_S8x32_S8 : S8x32.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  reducesTo_S128x1_S_d0_1 : S128x1.ReducesTo [0, 1] S_
  h_S_ : 0 < S_.numel
  dot_S8x3072_S3072x1024_S8x1024_1_0_0_1_n_n_wf : DotDims.WF S8x3072 S3072x1024 S8x1024 [1] [0] [0] [1] [] []
  dot_S8x1024_S1024x1024_S8x1024_1_0_0_1_n_n_wf : DotDims.WF S8x1024 S1024x1024 S8x1024 [1] [0] [0] [1] [] []
  dot_S8x1024_S1024x32_S8x32_1_0_0_1_n_n_wf : DotDims.WF S8x1024 S1024x32 S8x32 [1] [0] [0] [1] [] []
  dot_S256x3072_S3072x1024_S256x1024_1_0_0_1_n_n_wf : DotDims.WF S256x3072 S3072x1024 S256x1024 [1] [0] [0] [1] [] []
  dot_S256x1024_S1024x1024_S256x1024_1_0_0_1_n_n_wf : DotDims.WF S256x1024 S1024x1024 S256x1024 [1] [0] [0] [1] [] []
  dot_S256x1024_S1024x32_S256x32_1_0_0_1_n_n_wf : DotDims.WF S256x1024 S1024x32 S256x32 [1] [0] [0] [1] [] []
  dot_S8x32_S32x1024_S8x1024_1_0_0_1_n_n_wf : DotDims.WF S8x32 S32x1024 S8x1024 [1] [0] [0] [1] [] []
  dot_S8x1024_S1024x3072_S8x3072_1_0_0_1_n_n_wf : DotDims.WF S8x1024 S1024x3072 S8x3072 [1] [0] [0] [1] [] []
  dot_S256x32_S32x1024_S256x1024_1_0_0_1_n_n_wf : DotDims.WF S256x32 S32x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3072.size a ≤ S128x3072.size a
  hwx0_0 : ∀ i : grid0.Coords, EltTy.bits .f32 = 32 ∨ (Rect.block (s := S128x3072) S8x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32x3072.size a ≤ S128x32x3072.size a
  hwx0_1 : ∀ i : grid0.Coords, EltTy.bits .f32 = 32 ∨ (Rect.block (s := S128x32x3072) S8x32x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S1024x32.size a
  hwx0_6 : ∀ i : grid0.Coords, EltTy.bits .bf16 = 32 ∨ (Rect.block (s := S1024x32) S1024x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .bf16 = 32 ∨ (Rect.block (s := S32x1024) S32x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x3072.size a ≤ S1024x3072.size a
  hwx0_12 : ∀ i : grid0.Coords, EltTy.bits .bf16 = 32 ∨ (Rect.block (s := S1024x3072) S1024x3072.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3072.size a ≤ S3072.size a
  hwx0_13 : ∀ i : grid0.Coords, EltTy.bits .f32 = 32 ∨ (Rect.block (s := S3072) S3072.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x1.size a ≤ S128x1.size a
  hwx0_14 : ∀ i : grid0.Coords, EltTy.bits .f32 = 32 ∨ (Rect.block (s := S128x1) S8x1.size (cc0_transform_14 i) (hinb0_14 i)).WholeWords (EltTy.packing .f32)

variable [Facts₀]

def dot_S8x3072_S3072x1024_S8x1024_1_0_0_1_n_n : DotDims S8x3072 S3072x1024 S8x1024 where
  lhsContracting := [1]
  rhsContracting := [0]
  lhsNonContracting := [0]
  rhsNonContracting := [1]
  lhsBatch := []
  rhsBatch := []
  wf := dot_S8x3072_S3072x1024_S8x1024_1_0_0_1_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x32_S8x32_1_0_0_1_n_n : DotDims S8x1024 S1024x32 S8x32 where
  lhsContracting := [1]
  rhsContracting := [0]
  lhsNonContracting := [0]
  rhsNonContracting := [1]
  lhsBatch := []
  rhsBatch := []
  wf := dot_S8x1024_S1024x32_S8x32_1_0_0_1_n_n_wf
def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S8x32_S32x1024_S8x1024_1_0_0_1_n_n : DotDims S8x32 S32x1024 S8x1024 where
  lhsContracting := [1]
  rhsContracting := [0]
  lhsNonContracting := [0]
  rhsNonContracting := [1]
  lhsBatch := []
  rhsBatch := []
  wf := dot_S8x32_S32x1024_S8x1024_1_0_0_1_n_n_wf
def dot_S8x1024_S1024x3072_S8x3072_1_0_0_1_n_n : DotDims S8x1024 S1024x3072 S8x3072 where
  lhsContracting := [1]
  rhsContracting := [0]
  lhsNonContracting := [0]
  rhsNonContracting := [1]
  lhsBatch := []
  rhsBatch := []
  wf := dot_S8x1024_S1024x3072_S8x3072_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S8x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S32x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S8x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x3072 : Shape := ⟨2, ![128, 3072]⟩
abbrev S128x32x3072 : Shape := ⟨3, ![128, 32, 3072]⟩
abbrev S3072x1024 : Shape := ⟨2, ![3072, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S32x1024 : Shape := ⟨2, ![32, 1024]⟩
abbrev S1024x3072 : Shape := ⟨2, ![1024, 3072]⟩
abbrev S3072 : Shape := ⟨1, ![3072]⟩
abbrev S128x1024 : Shape := ⟨2, ![128, 1024]⟩
abbrev S1x1024 : Shape := ⟨2, ![1, 1024]⟩
abbrev S_ : Shape := ⟨0, ![]⟩
abbrev S128x32 : Shape := ⟨2, ![128, 32]⟩
abbrev S1x32 : Shape := ⟨2, ![1, 32]⟩
abbrev S4096x3072 : Shape := ⟨2, ![4096, 3072]⟩
abbrev S4096x1024 : Shape := ⟨2, ![4096, 1024]⟩
abbrev S4096x32 : Shape := ⟨2, ![4096, 32]⟩
abbrev S128x32x32 : Shape := ⟨3, ![128, 32, 32]⟩
abbrev S1x3072 : Shape := ⟨2, ![1, 3072]⟩
abbrev S128x1x32 : Shape := ⟨3, ![128, 1, 32]⟩
abbrev S128x1x3072 : Shape := ⟨3, ![128, 1, 3072]⟩

abbrev nBuf : Space → Nat
  | .hbm => 160
  | .vmem => 0
  | .smem => 0
  | _ => 0

abbrev hbmTy0_0 (i : Nat) : BufTy := match i % 128 with
  | 0 => ⟨S128x3072, .f32⟩
  | 1 => ⟨S128x32x3072, .f32⟩
  | 2 => ⟨S3072x1024, .f32⟩
  | 3 => ⟨S1024, .f32⟩
  | 4 => ⟨S1024x1024, .f32⟩
  | 5 => ⟨S1024, .f32⟩
  | 6 => ⟨S1024x32, .f32⟩
  | 7 => ⟨S32, .f32⟩
  | 8 => ⟨S32x1024, .f32⟩
  | 9 => ⟨S1024, .f32⟩
  | 10 => ⟨S1024x1024, .f32⟩
  | 11 => ⟨S1024, .f32⟩
  | 12 => ⟨S1024x3072, .f32⟩
  | 13 => ⟨S3072, .f32⟩
  | 14 => ⟨S128x1024, .f32⟩
  | 15 => ⟨S1x1024, .f32⟩
  | 16 => ⟨S128x1024, .f32⟩
  | 17 => ⟨S128x1024, .f32⟩
  | 18 => ⟨S_, .f32⟩
  | 19 => ⟨S128x1024, .f32⟩
  | 20 => ⟨S128x1024, .f32⟩
  | 21 => ⟨S128x1024, .f32⟩
  | 22 => ⟨S1x1024, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x32, .f32⟩
  | 29 => ⟨S1x32, .f32⟩
  | 30 => ⟨S128x32, .f32⟩
  | 31 => ⟨S128x32, .f32⟩
  | 32 => ⟨S4096x3072, .f32⟩
  | 33 => ⟨S4096x1024, .f32⟩
  | 34 => ⟨S1x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x32, .f32⟩
  | 48 => ⟨S1x32, .f32⟩
  | 49 => ⟨S4096x32, .f32⟩
  | 50 => ⟨S4096x32, .f32⟩
  | 51 => ⟨S128x32x32, .f32⟩
  | 52 => ⟨S128x1024, .f32⟩
  | 53 => ⟨S1x1024, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S1x1024, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S128x3072, .f32⟩
  | 67 => ⟨S1x3072, .f32⟩
  | 68 => ⟨S128x3072, .f32⟩
  | 69 => ⟨S128x3072, .f32⟩
  | 70 => ⟨S128x1x32, .f32⟩
  | 71 => ⟨S128x32x32, .f32⟩
  | 72 => ⟨S128x32x32, .f32⟩
  | 73 => ⟨S4096x32, .f32⟩
  | 74 => ⟨S128x1x32, .f32⟩
  | 75 => ⟨S128x32x32, .f32⟩
  | 76 => ⟨S4096x32, .f32⟩
  | 77 => ⟨S4096x1024, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .i1⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .i1⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S1x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S_, .f32⟩
  | 108 => ⟨S4096x1024, .f32⟩
  | 109 => ⟨S4096x1024, .i1⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .i1⟩
  | 116 => ⟨S_, .f32⟩
  | 117 => ⟨S4096x1024, .f32⟩
  | 118 => ⟨S4096x1024, .f32⟩
  | 119 => ⟨S4096x3072, .f32⟩
  | 120 => ⟨S4096x3072, .f32⟩
  | 121 => ⟨S4096x3072, .f32⟩
  | 122 => ⟨S1x3072, .f32⟩
  | 123 => ⟨S4096x3072, .f32⟩
  | 124 => ⟨S4096x3072, .f32⟩
  | 125 => ⟨S_, .f32⟩
  | 126 => ⟨S4096x3072, .f32⟩
  | 127 => ⟨S128x1x3072, .f32⟩
  | _ => ⟨S128x3072, .f32⟩

abbrev hbmTy0_1 (i : Nat) : BufTy := match i % 128 with
  | 0 => ⟨S_, .f32⟩
  | 1 => ⟨S4096x3072, .f32⟩
  | 2 => ⟨S4096x3072, .f32⟩
  | 3 => ⟨S4096x3072, .f32⟩
  | 4 => ⟨S128x32x3072, .f32⟩
  | 5 => ⟨S128x32x3072, .f32⟩
  | 6 => ⟨S128x32x3072, .f32⟩
  | 7 => ⟨S128x32x3072, .f32⟩
  | 8 => ⟨S128x32x3072, .f32⟩
  | 9 => ⟨S_, .f32⟩
  | 10 => ⟨S128x32, .f32⟩
  | 11 => ⟨S128x1x3072, .f32⟩
  | 12 => ⟨S128x32x3072, .f32⟩
  | 13 => ⟨S128x32x3072, .f32⟩
  | 14 => ⟨S128x32x3072, .f32⟩
  | 15 => ⟨S_, .f32⟩
  | 16 => ⟨S128x32, .f32⟩
  | 17 => ⟨S128x32, .f32⟩
  | 18 => ⟨S_, .f32⟩
  | 19 => ⟨S128x32, .f32⟩
  | 20 => ⟨S128x32, .i1⟩
  | 21 => ⟨S_, .f32⟩
  | 22 => ⟨S_, .f32⟩
  | 23 => ⟨S128x32, .f32⟩
  | 24 => ⟨S128x32, .f32⟩
  | 25 => ⟨S128x32, .f32⟩
  | 26 => ⟨S128x32, .f32⟩
  | 27 => ⟨S128x32, .f32⟩
  | 28 => ⟨S_, .f32⟩
  | 29 => ⟨S_, .f32⟩
  | 30 => ⟨S_, .f32⟩
  | 31 => ⟨S_, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_cst : Ref sig .tc := ⟨.hbm, 37, rfl⟩
abbrev main_call2_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_cst : Ref sig .tc := ⟨.hbm, 56, rfl⟩
abbrev main_call4_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call5_cst : Ref sig .tc := ⟨.hbm, 63, rfl⟩
abbrev main_call5_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call6_cst : Ref sig .tc := ⟨.hbm, 83, rfl⟩
abbrev main_call6_v0 : Ref sig .tc := ⟨.hbm, 84, rfl⟩
abbrev main_v57 : Ref sig .tc := ⟨.hbm, 85, rfl⟩
abbrev main_cst : Ref sig .tc := ⟨.hbm, 86, rfl⟩
abbrev main_v58 : Ref sig .tc := ⟨.hbm, 87, rfl⟩
abbrev main_v59 : Ref sig .tc := ⟨.hbm, 88, rfl⟩
abbrev main_cst_0 : Ref sig .tc := ⟨.hbm, 89, rfl⟩
abbrev main_v60 : Ref sig .tc := ⟨.hbm, 90, rfl⟩
abbrev main_v61 : Ref sig .tc := ⟨.hbm, 91, rfl⟩
abbrev main_cst_1 : Ref sig .tc := ⟨.hbm, 92, rfl⟩
abbrev main_v62 : Ref sig .tc := ⟨.hbm, 93, rfl⟩
abbrev main_v63 : Ref sig .tc := ⟨.hbm, 94, rfl⟩
abbrev main_cst_2 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call7_cst : Ref sig .tc := ⟨.hbm, 104, rfl⟩
abbrev main_call7_v0 : Ref sig .tc := ⟨.hbm, 105, rfl⟩
abbrev main_v72 : Ref sig .tc := ⟨.hbm, 106, rfl⟩
abbrev main_cst_3 : Ref sig .tc := ⟨.hbm, 107, rfl⟩
abbrev main_v73 : Ref sig .tc := ⟨.hbm, 108, rfl⟩
abbrev main_v74 : Ref sig .tc := ⟨.hbm, 109, rfl⟩
abbrev main_cst_4 : Ref sig .tc := ⟨.hbm, 110, rfl⟩
abbrev main_v75 : Ref sig .tc := ⟨.hbm, 111, rfl⟩
abbrev main_v76 : Ref sig .tc := ⟨.hbm, 112, rfl⟩
abbrev main_cst_5 : Ref sig .tc := ⟨.hbm, 113, rfl⟩
abbrev main_v77 : Ref sig .tc := ⟨.hbm, 114, rfl⟩
abbrev main_v78 : Ref sig .tc := ⟨.hbm, 115, rfl⟩
abbrev main_cst_6 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_7 : Ref sig .tc := ⟨.hbm, 125, rfl⟩
abbrev main_v87 : Ref sig .tc := ⟨.hbm, 126, rfl⟩
abbrev main_v88 : Ref sig .tc := ⟨.hbm, 127, rfl⟩
abbrev main_cst_8 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_9 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call8_v0 : Ref sig .tc := ⟨.hbm, 142, rfl⟩
abbrev main_call8_cst : Ref sig .tc := ⟨.hbm, 143, rfl⟩
abbrev main_call8_v1 : Ref sig .tc := ⟨.hbm, 144, rfl⟩
abbrev main_v101 : Ref sig .tc := ⟨.hbm, 145, rfl⟩
abbrev main_cst_10 : Ref sig .tc := ⟨.hbm, 146, rfl⟩
abbrev main_v102 : Ref sig .tc := ⟨.hbm, 147, rfl⟩
abbrev main_v103 : Ref sig .tc := ⟨.hbm, 148, rfl⟩
abbrev main_cst_11 : Ref sig .tc := ⟨.hbm, 149, rfl⟩
abbrev main_cst_12 : Ref sig .tc := ⟨.hbm, 150, rfl⟩
abbrev main_call9_v0 : Ref sig .tc := ⟨.hbm, 151, rfl⟩
abbrev main_call9_v1 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_13 : Ref sig .tc := ⟨.hbm, 156, rfl⟩
abbrev main_v107 : Ref sig .tc := ⟨.hbm, 157, rfl⟩
abbrev main_cst_14 : Ref sig .tc := ⟨.hbm, 158, rfl⟩
abbrev main_v108 : Ref sig .tc := ⟨.hbm, 159, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  shapeCasts_S128x32x3072_S4096x3072 : S128x32x3072.ShapeCasts S4096x3072
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1x32_S4096x32_0_1 : S1x32.BroadcastsInDim S4096x32 (![0, 1] : Fin 2 → Fin S4096x32.rank)
  shapeCasts_S4096x32_S128x32x32 : S4096x32.ShapeCasts S128x32x32
  bcast_S3072_S1x3072_1 : S3072.BroadcastsInDim S1x3072 (![1] : Fin 1 → Fin S1x3072.rank)
  bcast_S1x3072_S128x3072_0_1 : S1x3072.BroadcastsInDim S128x3072 (![0, 1] : Fin 2 → Fin S128x3072.rank)
  bcast_S128x32_S128x1x32_0_2 : S128x32.BroadcastsInDim S128x1x32 (![0, 2] : Fin 2 → Fin S128x1x32.rank)
  bcast_S128x1x32_S128x32x32_0_1_2 : S128x1x32.BroadcastsInDim S128x32x32 (![0, 1, 2] : Fin 3 → Fin S128x32x32.rank)
  shapeCasts_S128x32x32_S4096x32 : S128x32x32.ShapeCasts S4096x32
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  bcast_S128x3072_S128x1x3072_0_2 : S128x3072.BroadcastsInDim S128x1x3072 (![0, 2] : Fin 2 → Fin S128x1x3072.rank)
  shapeCasts_S4096x3072_S128x32x3072 : S4096x3072.ShapeCasts S128x32x3072
  bcast_S128x1x3072_S128x32x3072_0_1_2 : S128x1x3072.BroadcastsInDim S128x32x3072 (![0, 1, 2] : Fin 3 → Fin S128x32x3072.rank)
  reducesTo_S128x32x3072_S128x32_d2 : S128x32x3072.ReducesTo [2] S128x32
  h_S_ : 0 < S_.numel
  bcast_S_S128x32 : S_.BroadcastsInDim S128x32 (![] : Fin 0 → Fin S128x32.rank)
  reducesTo_S128x32_S_d0_1 : S128x32.ReducesTo [0, 1] S_
  dot_S128x3072_S3072x1024_S128x1024_1_0_0_1_n_n_wf : DotDims.WF S128x3072 S3072x1024 S128x1024 [1] [0] [0] [1] [] []
  dot_S128x1024_S1024x1024_S128x1024_1_0_0_1_n_n_wf : DotDims.WF S128x1024 S1024x1024 S128x1024 [1] [0] [0] [1] [] []
  dot_S128x1024_S1024x32_S128x32_1_0_0_1_n_n_wf : DotDims.WF S128x1024 S1024x32 S128x32 [1] [0] [0] [1] [] []
  dot_S4096x3072_S3072x1024_S4096x1024_1_0_0_1_n_n_wf : DotDims.WF S4096x3072 S3072x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x32_S4096x32_1_0_0_1_n_n_wf : DotDims.WF S4096x1024 S1024x32 S4096x32 [1] [0] [0] [1] [] []
  dot_S128x32_S32x1024_S128x1024_1_0_0_1_n_n_wf : DotDims.WF S128x32 S32x1024 S128x1024 [1] [0] [0] [1] [] []
  dot_S128x1024_S1024x3072_S128x3072_1_0_0_1_n_n_wf : DotDims.WF S128x1024 S1024x3072 S128x3072 [1] [0] [0] [1] [] []
  dot_S4096x32_S32x1024_S4096x1024_1_0_0_1_n_n_wf : DotDims.WF S4096x32 S32x1024 S4096x1024 [1] [0] [0] [1] [] []
  dot_S4096x1024_S1024x3072_S4096x3072_1_0_0_1_n_n_wf : DotDims.WF S4096x1024 S1024x3072 S4096x3072 [1] [0] [0] [1] [] []

variable [Facts₀]

def dot_S128x3072_S3072x1024_S128x1024_1_0_0_1_n_n : DotDims S128x3072 S3072x1024 S128x1024 where
  lhsContracting := [1]
  rhsContracting := [0]
  lhsNonContracting := [0]
  rhsNonContracting := [1]
  lhsBatch := []
  rhsBatch := []
  wf := dot_S128x3072_S3072x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x32_S128x32_1_0_0_1_n_n : DotDims S128x1024 S1024x32 S128x32 where
  lhsContracting := [1]
  rhsContracting := [0]
  lhsNonContracting := [0]
  rhsNonContracting := [1]
  lhsBatch := []
  rhsBatch := []
  wf := dot_S128x1024_S1024x32_S128x32_1_0_0_1_n_n_wf
def dot_S4096x3072_S3072x1024_S4096x1024_1_0_0_1_n_n : DotDims S4096x3072 S3072x1024 S4096x1024 where
  lhsContracting := [1]
  rhsContracting := [0]
  lhsNonContracting := [0]
  rhsNonContracting := [1]
  lhsBatch := []
  rhsBatch := []
  wf := dot_S4096x3072_S3072x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x32_S4096x32_1_0_0_1_n_n : DotDims S4096x1024 S1024x32 S4096x32 where
  lhsContracting := [1]
  rhsContracting := [0]
  lhsNonContracting := [0]
  rhsNonContracting := [1]
  lhsBatch := []
  rhsBatch := []
  wf := dot_S4096x1024_S1024x32_S4096x32_1_0_0_1_n_n_wf
def dot_S128x32_S32x1024_S128x1024_1_0_0_1_n_n : DotDims S128x32 S32x1024 S128x1024 where
  lhsContracting := [1]
  rhsContracting := [0]
  lhsNonContracting := [0]
  rhsNonContracting := [1]
  lhsBatch := []
  rhsBatch := []
  wf := dot_S128x32_S32x1024_S128x1024_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S4096x32_S32x1024_S4096x1024_1_0_0_1_n_n : DotDims S4096x32 S32x1024 S4096x1024 where
  lhsContracting := [1]
  rhsContracting := [0]
  lhsNonContracting := [0]
  rhsNonContracting := [1]
  lhsBatch := []
  rhsBatch := []
  wf := dot_S4096x32_S32x1024_S4096x1024_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.Nrae.lean ====
/-
  The loss both programs compute, written once over plain rows of extended reals.

  A dense layer sends a row x to  q ↦ (Σ_k x_k · W(k, q)) + c_q ; the rectifier is max(·, 0) entry by entry. The encoder
  is three dense layers with a rectifier after the first two, D → H → H → Z; the decoder is the same, Z → H → H → D.
  The decoder is piecewise linear in its input z: its derivative at z in a direction dz is obtained by sending dz through the
  three weight matrices without the biases, and after each of the first two keeping only the entries where the decoder's own
  pre-activation at z is positive (gate). For a centre x_c and one neighbour x_n, with z_c, z_n their codes,

      n_recon = dec(z_c) + dec'(z_c)·(z_n − z_c),      loss term = w · Σ_d (x_n − n_recon)_d² ,

  where the weight w is 1 when the Euclidean distance of x_c and x_n exceeds a small threshold and 1/2 otherwise. The whole
  loss is the sum of the terms over all centres and neighbours, divided by their number.

  The gate appears in two spellings: as a product with a 0/1 indicator of "pre-activation positive", and as a choice
  between the entry and zero on the same test. Both are the gate (mul_indicator, choose_eq_gate).
-/
import Idealize.ShloMosaic.PureOps.Ideal
import Idealize.ShloMosaic.PureOps.Ideal.Laws
import Idealize.ShloMosaic.Lib.ValueIdx

noncomputable section

open scoped BigOperators

namespace Cert.Nrae

open Idealize.ShloMosaic Idealize.ShloMosaic.ValueIdx

/-! ## Rows -/

section Rows

variable {K N : Nat}

/-- A dense layer on one row: q ↦ (Σ_k x_k · W(k, q)) + c_q. -/
def dense (W : Fin K → Fin N → EReal) (c : Fin N → EReal) (x : Fin K → EReal) : Fin N → EReal :=
  fun q => (∑ k : Fin K, x k * W k q) + c q

/-- The layer without its bias: q ↦ Σ_k x_k · W(k, q). -/
def lin (W : Fin K → Fin N → EReal) (x : Fin K → EReal) : Fin N → EReal :=
  fun q => ∑ k : Fin K, x k * W k q

/-- The rectifier, entry by entry. -/
def relu (v : Fin N → EReal) : Fin N → EReal := fun q => max (v q) 0

/-- The rectifier's derivative at pre applied to g: the entries of g where pre is positive, zero elsewhere. -/
def gate (pre g : Fin N → EReal) : Fin N → EReal := fun q => if 0 < pre q then g q else 0

end Rows

/-! ## The network -/

/-- The twelve parameter arrays as matrices and rows. -/
structure Net where
  We1 : Fin 3072 → Fin 1024 → EReal
  be1 : Fin 1024 → EReal
  We2 : Fin 1024 → Fin 1024 → EReal
  be2 : Fin 1024 → EReal
  We3 : Fin 1024 → Fin 32 → EReal
  be3 : Fin 32 → EReal
  Wd1 : Fin 32 → Fin 1024 → EReal
  bd1 : Fin 1024 → EReal
  Wd2 : Fin 1024 → Fin 1024 → EReal
  bd2 : Fin 1024 → EReal
  Wd3 : Fin 1024 → Fin 3072 → EReal
  bd3 : Fin 3072 → EReal

/-- The encoder's code of a row. -/
def enc (P : Net) (x : Fin 3072 → EReal) : Fin 32 → EReal :=
  dense P.We3 P.be3 (relu (dense P.We2 P.be2 (relu (dense P.We1 P.be1 x))))

/-- The decoder's first pre-activation at a code. -/
def pre1 (P : Net) (z : Fin 32 → EReal) : Fin 1024 → EReal := dense P.Wd1 P.bd1 z

/-- The decoder's second pre-activation at a code. -/
def pre2 (P : Net) (z : Fin 32 → EReal) : Fin 1024 → EReal := dense P.Wd2 P.bd2 (relu (pre1 P z))

/-- The decoder's output at a code. -/
def recon (P : Net) (z : Fin 32 → EReal) : Fin 3072 → EReal := dense P.Wd3 P.bd3 (relu (pre2 P z))

/-- The decoder's derivative at the code z in the direction dz. -/
def jac (P : Net) (z dz : Fin 32 → EReal) : Fin 3072 → EReal :=
  lin P.Wd3 (gate (pre2 P z) (lin P.Wd2 (gate (pre1 P z) (lin P.Wd1 dz))))

/-- The first-order reconstruction of a neighbour from its centre. -/
def nrecon (P : Net) (xc xn : Fin 3072 → EReal) : Fin 3072 → EReal :=
  fun d => recon P (enc P xc) d + jac P (enc P xc) (fun k => enc P xn k - enc P xc k) d

/-- The squared error of that reconstruction. -/
def nloss (P : Net) (xc xn : Fin 3072 → EReal) : EReal :=
  ∑ d : Fin 3072, (xn d - nrecon P xc xn d) * (xn d - nrecon P xc xn d)

/-- The Euclidean distance of a centre and a neighbour. -/
def dist (xc xn : Fin 3072 → EReal) : EReal :=
  Ideal.sqrt (∑ d : Fin 3072, (xc d - xn d) * (xc d - xn d))

/-- The weight of a pair: the first constant beyond the threshold, the second within it (the three constants as their
    single-precision words: about 1e-12, 1 and 1/2). -/
def weight (xc xn : Fin 3072 → EReal) : EReal :=
  if Ideal.ofBits .f32 0x2B8CBCCC#32 < dist xc xn then Ideal.ofBits .f32 0x3F800000#32 else Ideal.ofBits .f32 0x3F000000#32

/-- One pair's term of the loss. -/
def term (P : Net) (xc xn : Fin 3072 → EReal) : EReal := weight xc xn * nloss P xc xn

/-! ## Arrays as matrices, rows and the network -/

/-- A two-axis array as a matrix. -/
def mat {φ : FTy} {A B : Nat} (w : FVec Ideal ⟨2, ![A, B]⟩ φ) : Fin A → Fin B → EReal := fun k q => w (ix2 k q)

/-- A one-axis array as a row. -/
def vec {φ : FTy} {A : Nat} (v : FVec Ideal ⟨1, ![A]⟩ φ) : Fin A → EReal := fun q => v (ix1 q)

/-- Row b of a two-axis array. -/
def row2 {φ : FTy} {A B : Nat} (x : FVec Ideal ⟨2, ![A, B]⟩ φ) (b : Fin A) : Fin B → EReal := fun d => x (ix2 b d)

/-- Row (b, n) of a three-axis array. -/
def row3 {φ : FTy} {A B C : Nat} (x : FVec Ideal ⟨3, ![A, B, C]⟩ φ) (b : Fin A) (n : Fin B) : Fin C → EReal :=
  fun d => x (ix3 b n d)

/-- The network of twelve parameter arrays (the six matrices in either float format: a format is not part of an
    extended real). -/
def netOf {φ : FTy}
    (a2 : FVec Ideal ⟨2, ![3072, 1024]⟩ φ) (a3 : FVec Ideal ⟨1, ![1024]⟩ .f32)
    (a4 : FVec Ideal ⟨2, ![1024, 1024]⟩ φ) (a5 : FVec Ideal ⟨1, ![1024]⟩ .f32)
    (a6 : FVec Ideal ⟨2, ![1024, 32]⟩ φ) (a7 : FVec Ideal ⟨1, ![32]⟩ .f32)
    (a8 : FVec Ideal ⟨2, ![32, 1024]⟩ φ) (a9 : FVec Ideal ⟨1, ![1024]⟩ .f32)
    (a10 : FVec Ideal ⟨2, ![1024, 1024]⟩ φ) (a11 : FVec Ideal ⟨1, ![1024]⟩ .f32)
    (a12 : FVec Ideal ⟨2, ![1024, 3072]⟩ φ) (a13 : FVec Ideal ⟨1, ![3072]⟩ .f32) : Net :=
  ⟨mat a2, vec a3, mat a4, vec a5, mat a6, vec a7, mat a8, vec a9, mat a10, vec a11, mat a12, vec a13⟩

/-- Row b·32 + n of 8 blocks of 32 rows. -/
def flat8 (p : Fin 8) (n : Fin 32) : Fin 256 := ⟨p.val * 32 + n.val, by have := p.isLt; have := n.isLt; omega⟩

/-- Row b·32 + n of 128 blocks of 32 rows. -/
def flat128 (b : Fin 128) (n : Fin 32) : Fin 4096 := ⟨b.val * 32 + n.val, by have := b.isLt; have := n.isLt; omega⟩

/-- The whole loss of a batch of centres [128, 3072] and their neighbours [128, 32, 3072]: the sum of all pairs' terms from
    the zero word, divided by the word of 4096. -/
def loss (P : Net) (xc : FVec Ideal ⟨2, ![128, 3072]⟩ .f32) (xn : FVec Ideal ⟨3, ![128, 32, 3072]⟩ .f32) : EReal :=
  Ideal.div (Ideal.ofBits .f32 0x00000000#32 + ∑ b : Fin 128, ∑ n : Fin 32, term P (row2 xc b) (row3 xn b n))
    (Ideal.ofBits .f32 0x45800000#32)

/-! ## The gate's two spellings -/

/-- The 0/1 indicator of "x is positive" as the programs compute it: the comparison's bit, widened and read as an integer. -/
def indicator (x : EReal) : EReal := (((Ideal.cmp .ogt x 0).setWidth 32).toInt : ℝ)

theorem indicator_eq (x : EReal) : indicator x = if 0 < x then 1 else 0 := by
  unfold indicator Ideal.cmp
  by_cases h : 0 < x
  · simp [h]
  · simp [h]

/-- A product with the indicator is the gate. -/
theorem mul_indicator (g x : EReal) : g * indicator x = if 0 < x then g else 0 := by
  rw [indicator_eq]
  by_cases h : 0 < x
  · simp [h]
  · simp [h]

/-- The choice between an entry and zero on the comparison's bit is the gate. -/
theorem choose_eq_gate (g x : EReal) : Scalar.select (Ideal.cmp .ogt x 0) g 0 = if 0 < x then g else 0 := by
  unfold Scalar.select Ideal.cmp
  by_cases h : 0 < x
  · simp [h]
  · simp [h]

end Cert.Nrae

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.KernelEncoder.lean ====
/-
  The kernel's encoder on one block, read row by row.

  At each grid point the kernel holds 8 centres [8, 3072] and their 8·32 neighbours [8, 32, 3072], the neighbours laid out as 256
  rows (row p·32 + n being neighbour n of centre p). It applies the encoder's three dense layers to both: each product runs on
  the matrix unit into a zero accumulator, the bias row is added, and after the first two layers the rectifier follows. A
  narrowing of the float format on the way into a product is the identity on the extended reals. A dense layer acts on each row
  by itself, so every entry is the layer's value on that row.
-/
import proofs.«164909_j16423954940420_1_alg».proof.Proof.Gen.KernelIdeal.Skeleton
import proofs.«164909_j16423954940420_1_alg».proof.Proof.Nrae
import proofs.«164909_j16423954940420_1_alg».proof.Proof.LibBlocks
import proofs.«164909_j16423954940420_1_alg».proof.Proof.LibLaneSum
import proofs.«164909_j16423954940420_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Nrae.KernelSide

open Idealize.ShloMosaic Idealize.ShloMosaic.ValueIdx Cert.KernelIdeal Cert.KernelIdeal.Gen Cert.Nrae

/-! ## One dense layer on a block of rows, read at an entry -/

section Layer

variable {M K N : Nat}

/-- The bias row [N], reshaped to [1, N] and broadcast down the M rows of a block, at entry (p, q): the row's entry q. -/
private theorem bias_entry
    (hc : (⟨1, ![N]⟩ : Shape).ShapeCasts ⟨2, ![1, N]⟩) (hb : (⟨2, ![1, N]⟩ : Shape).Broadcasts ⟨2, ![M, N]⟩)
    (c : FVec Ideal ⟨1, ![N]⟩ .f32) (p : Fin M) (q : Fin N) :
    broadcastTo ⟨2, ![M, N]⟩ (shapeCast ⟨2, ![1, N]⟩ c hc) hb (ix2 p q) = c (ix1 q) := by
  rw [broadcastTo_apply (shapeCast ⟨2, ![1, N]⟩ c hc) hb (ix2 p q) (ix2 (0 : Fin 1) q) (fun a => by
    match a with
    | ⟨0, _⟩ => rfl
    | ⟨1, _⟩ =>
      show q.val = if N = 1 then 0 else q.val
      have := q.isLt
      split_ifs <;> omega)]
  refine shapeCast_apply c hc (ix2 (0 : Fin 1) q) (ix1 q) ?_
  rw [Shape.rowMajor_val_one, Shape.rowMajor_val_two]
  show q.val = 0 * N + q.val
  omega

/-- Product into a zero accumulator, the left operand narrowed on the way in, plus the bias row: entry (p, q) is the dense
    layer's value on row p at q. -/
private theorem layer_entry
    (d : DotDims ⟨2, ![M, K]⟩ ⟨2, ![K, N]⟩ ⟨2, ![M, N]⟩) (hd : d = DotDims.plain M K N)
    (hlt : FTy.bf16.bits < FTy.f32.bits)
    (hc : (⟨1, ![N]⟩ : Shape).ShapeCasts ⟨2, ![1, N]⟩) (hb : (⟨2, ![1, N]⟩ : Shape).Broadcasts ⟨2, ![M, N]⟩)
    (X : FVec Ideal ⟨2, ![M, K]⟩ .f32) (W : FVec Ideal ⟨2, ![K, N]⟩ .bf16) (c : FVec Ideal ⟨1, ![N]⟩ .f32)
    (p : Fin M) (q : Fin N) :
    addf (matmul (F := Ideal) d none (truncf .bf16 X hlt) W (constant (F := Ideal) ⟨2, ![M, N]⟩ .f32 0x00000000#32))
        (broadcastTo ⟨2, ![M, N]⟩ (shapeCast ⟨2, ![1, N]⟩ c hc) hb) (ix2 p q)
      = dense (mat W) (vec c) (row2 X p) q := by
  rw [addf_apply, bias_entry hc hb c p q]
  show FloatOps.matmul d none _ _ _ _ + _ = _
  rw [Cert.LibBlocks.matmul_plain_apply d hd]
  rfl

/-- The same, a whole row at a time. -/
private theorem layer_row
    (d : DotDims ⟨2, ![M, K]⟩ ⟨2, ![K, N]⟩ ⟨2, ![M, N]⟩) (hd : d = DotDims.plain M K N)
    (hlt : FTy.bf16.bits < FTy.f32.bits)
    (hc : (⟨1, ![N]⟩ : Shape).ShapeCasts ⟨2, ![1, N]⟩) (hb : (⟨2, ![1, N]⟩ : Shape).Broadcasts ⟨2, ![M, N]⟩)
    (X : FVec Ideal ⟨2, ![M, K]⟩ .f32) (W : FVec Ideal ⟨2, ![K, N]⟩ .bf16) (c : FVec Ideal ⟨1, ![N]⟩ .f32)
    (p : Fin M) :
    row2 (addf (matmul (F := Ideal) d none (truncf .bf16 X hlt) W (constant (F := Ideal) ⟨2, ![M, N]⟩ .f32 0x00000000#32))
        (broadcastTo ⟨2, ![M, N]⟩ (shapeCast ⟨2, ![1, N]⟩ c hc) hb)) p
      = dense (mat W) (vec c) (row2 X p) :=
  funext fun q => layer_entry d hd hlt hc hb X W c p q

/-- The maximum with the zero word, a row at a time: the rectifier on that row. -/
private theorem relu_row (Y : FVec Ideal ⟨2, ![M, N]⟩ .f32) (p : Fin M) :
    row2 (maximumf Y (broadcast ⟨2, ![M, N]⟩ (Scalar.ofBits (F := Ideal) .f32 0x00000000#32))) p = relu (row2 Y p) := by
  funext q
  show max (Y (ix2 p q)) (Ideal.ofBits .f32 0x00000000#32) = max (Y (ix2 p q)) 0
  rw [Ideal.ofBits_zero_f32]

end Layer

/-- The six weight matrices pass through a reshape to their own shape. -/
theorem weights1 (v : FVec Ideal S3072x1024 .bf16) : k0_pay1 (F := Ideal) v = v :=
  shapeCast_self v _
theorem weights2 (v : FVec Ideal S1024x1024 .bf16) : k0_pay2 (F := Ideal) v = v :=
  shapeCast_self v _
theorem weights3 (v : FVec Ideal S1024x32 .bf16) : k0_pay3 (F := Ideal) v = v :=
  shapeCast_self v _
theorem weights4 (v : FVec Ideal S32x1024 .bf16) : k0_pay4 (F := Ideal) v = v :=
  shapeCast_self v _
theorem weights5 (v : FVec Ideal S1024x1024 .bf16) : k0_pay5 (F := Ideal) v = v :=
  shapeCast_self v _
theorem weights6 (v : FVec Ideal S1024x3072 .bf16) : k0_pay6 (F := Ideal) v = v :=
  shapeCast_self v _

/-- The centres' second hidden pre-activation at (p, q): two dense layers on row p, a rectifier between them. -/
theorem centre_hidden (v0 : FVec Ideal S8x3072 .f32) (v2 : FVec Ideal S3072x1024 .bf16) (v4 : FVec Ideal S1024 .f32) (v5 : FVec Ideal S1024x1024 .bf16) (v7 : FVec Ideal S1024 .f32) (p : Fin 8) (q : Fin 1024) :
    k0_pay7 (F := Ideal) v0 v2 v4 v5 v7 (ix2 p q)
      = dense (mat v5) (vec v7) (relu (dense (mat v2) (vec v4) (row2 v0 p))) q := by
  show row2 (k0_pay7 (F := Ideal) v0 v2 v4 v5 v7) p q = _
  unfold k0_pay7
  dsimp only
  rw [layer_row dot_S8x1024_S1024x1024_S8x1024_1_0_0_1_n_n rfl, relu_row, layer_row dot_S8x3072_S3072x1024_S8x1024_1_0_0_1_n_n rfl, weights1, weights2]

/-- The centres' codes at (p, j), from the second hidden pre-activation h: the rectifier and the third dense layer on row p. -/
theorem centre_code (v9 : FVec Ideal S1024x32 .bf16) (v10 : FVec Ideal S32 .f32) (h : FVec Ideal S8x1024 .f32) (p : Fin 8) (j : Fin 32) :
    k0_pay8 (F := Ideal) v9 v10 h (Scalar.ofBits (F := Ideal) .f32 0x00000000#32) (ix2 p j) = dense (mat v9) (vec v10) (relu (row2 h p)) j := by
  show row2 (k0_pay8 (F := Ideal) v9 v10 h (Scalar.ofBits (F := Ideal) .f32 0x00000000#32)) p j = _
  unfold k0_pay8
  dsimp only
  rw [layer_row dot_S8x1024_S1024x32_S8x32_1_0_0_1_n_n rfl, relu_row]

/-- The neighbours [8, 32, 3072] laid out as 256 rows: row p·32 + n is row (p, n). -/
private theorem neighbour_row (v1 : FVec Ideal S8x32x3072 .f32) (hc : S8x32x3072.ShapeCasts S256x3072) (p : Fin 8) (n : Fin 32) :
    row2 (shapeCast S256x3072 v1 hc) (flat8 p n) = row3 v1 p n := by
  funext d
  refine shapeCast_apply v1 hc (ix2 (flat8 p n) d) (ix3 p n d) ?_
  rw [Shape.rowMajor_val_three, Shape.rowMajor_val_two]
  show (p.val * 32 + n.val) * 3072 + d.val = (p.val * 32 + n.val) * 3072 + d.val
  rfl

/-- The neighbours' codes at (p·32 + n, j): the encoder's code of row (p, n). -/
theorem neighbour_code (v1 : FVec Ideal S8x32x3072 .f32) (v3 : FVec Ideal S3072x1024 .bf16) (v4 : FVec Ideal S1024 .f32) (v6 : FVec Ideal S1024x1024 .bf16) (v7 : FVec Ideal S1024 .f32) (v9 : FVec Ideal S1024x32 .bf16) (v10 : FVec Ideal S32 .f32) (p : Fin 8) (n : Fin 32) (j : Fin 32) :
    k0_pay9 (F := Ideal) v1 v3 v4 v6 v7 v9 v10 (ix2 (flat8 p n) j)
      = dense (mat v9) (vec v10) (relu (dense (mat v6) (vec v7) (relu (dense (mat v3) (vec v4) (row3 v1 p n))))) j := by
  show row2 (k0_pay9 (F := Ideal) v1 v3 v4 v6 v7 v9 v10) (flat8 p n) j = _
  unfold k0_pay9
  dsimp only
  rw [layer_row dot_S256x1024_S1024x32_S256x32_1_0_0_1_n_n rfl, relu_row, layer_row dot_S256x1024_S1024x1024_S256x1024_1_0_0_1_n_n rfl, relu_row,
    layer_row dot_S256x3072_S3072x1024_S256x1024_1_0_0_1_n_n rfl, neighbour_row]

end Cert.Nrae.KernelSide

end
-- ==== Proof.KernelDecoder.lean ====
/-
  The kernel's decoder at the centres' codes on one block, read row by row.

  From the centres' second hidden pre-activation h the kernel forms their codes, then the decoder's first pre-activation, the
  0/1 indicator of where it is positive, the second pre-activation (dense layer on the rectified first) and its indicator. The
  indicator is the comparison's bit widened to an integer and read as a float.
-/
import proofs.«164909_j16423954940420_1_alg».proof.Proof.KernelEncoder

noncomputable section

open scoped BigOperators

namespace Cert.Nrae.KernelSide

open Idealize.ShloMosaic Idealize.ShloMosaic.ValueIdx Cert.KernelIdeal Cert.KernelIdeal.Gen Cert.Nrae

/-- A row of b entries viewed as a 1 x b array and repeated down n rows reads, at (p, q), the row's entry q: the 1 x b
    array's row-major position 0 · b + q is the row's index q, and the broadcast keeps the column and sends the row
    coordinate to the one row there is. -/
private theorem bias_apply {n b : Nat} {α : Type} (c : (⟨1, ![b]⟩ : Shape).Idx → α)
    (hc : (⟨1, ![b]⟩ : Shape).ShapeCasts ⟨2, ![1, b]⟩) (hb : (⟨2, ![1, b]⟩ : Shape).Broadcasts ⟨2, ![n, b]⟩)
    (p : Fin n) (q : Fin b) :
    broadcastTo ⟨2, ![n, b]⟩ (shapeCast ⟨2, ![1, b]⟩ c hc) hb (ix2 p q) = c (ix1 q) := by
  rw [broadcastTo_apply (shapeCast ⟨2, ![1, b]⟩ c hc) hb (ix2 p q) (ix2 (0 : Fin 1) q) (fun a => by
    match a with
    | ⟨0, _⟩ => rfl
    | ⟨1, _⟩ =>
      show q.val = if b = 1 then 0 else q.val
      have := q.isLt
      split_ifs <;> omega)]
  exact shapeCast_apply c hc _ _ (by
    rw [Shape.rowMajor_val_two, Shape.rowMajor_val_one]
    show q.val = 0 * b + q.val
    omega)

/-- The comparison with the zero word, widened to an integer and read as a float, at an index: the indicator of the
    entry there. -/
private theorem mask_apply {s : Shape} (x : FVec Ideal s .f32) (h : 1 < 32) (i : s.Idx) :
    (sitofp .f32 (extui 32 (cmpf .ogt x (broadcast s (Scalar.ofBits (F := Ideal) .f32 0x00000000#32))) h) : FVec Ideal s .f32) i
      = indicator (x i) := by
  rw [sitofp_apply, extui_apply, cmpf_apply, broadcast_apply]
  unfold indicator
  show ((((Ideal.cmp .ogt (x i) (Ideal.ofBits .f32 0x00000000#32)).setWidth 32).toInt : ℝ) : EReal) = _
  rw [Ideal.ofBits_zero_f32]

/-- The decoder's first pre-activation at (p, q): the first decoder layer on the code of centre p. -/
theorem centre_pre1 (v9 : FVec Ideal S1024x32 .bf16) (v10 : FVec Ideal S32 .f32) (v12 : FVec Ideal S32x1024 .bf16) (v13 : FVec Ideal S1024 .f32) (h : FVec Ideal S8x1024 .f32) (p : Fin 8) (q : Fin 1024) :
    k0_pay10 (F := Ideal) v9 v10 v12 v13 h (Scalar.ofBits (F := Ideal) .f32 0x00000000#32) (ix2 p q) = dense (mat v12) (vec v13) (dense (mat v9) (vec v10) (relu (row2 h p))) q := by
  unfold k0_pay10
  rw [addf_apply, bias_apply]
  show FloatOps.matmul _ _ _ _ _ (ix2 p q) + _ = _
  rw [Cert.LibBlocks.matmul_plain_apply dot_S8x32_S32x1024_S8x1024_1_0_0_1_n_n rfl]
  unfold dense
  congr 1
  refine Finset.sum_congr rfl fun k _ => ?_
  rw [truncf_apply, centre_code]
  rfl

/-- Its indicator at (p, q). -/
theorem centre_mask1 (v9 : FVec Ideal S1024x32 .bf16) (v10 : FVec Ideal S32 .f32) (v12 : FVec Ideal S32x1024 .bf16) (v13 : FVec Ideal S1024 .f32) (h : FVec Ideal S8x1024 .f32) (p : Fin 8) (q : Fin 1024) :
    k0_pay11 (F := Ideal) v9 v10 v12 v13 h (Scalar.ofBits (F := Ideal) .f32 0x00000000#32) (ix2 p q) = indicator (dense (mat v12) (vec v13) (dense (mat v9) (vec v10) (relu (row2 h p))) q) := by
  unfold k0_pay11
  rw [mask_apply, centre_pre1]

/-- The decoder's second pre-activation at (p, q). -/
theorem centre_pre2 (v9 : FVec Ideal S1024x32 .bf16) (v10 : FVec Ideal S32 .f32) (v12 : FVec Ideal S32x1024 .bf16) (v13 : FVec Ideal S1024 .f32) (v15 : FVec Ideal S1024x1024 .bf16) (v16 : FVec Ideal S1024 .f32) (h : FVec Ideal S8x1024 .f32) (p : Fin 8) (q : Fin 1024) :
    k0_pay12 (F := Ideal) v9 v10 v12 v13 v15 v16 h (Scalar.ofBits (F := Ideal) .f32 0x00000000#32) (ix2 p q)
      = dense (mat v15) (vec v16) (relu (dense (mat v12) (vec v13) (dense (mat v9) (vec v10) (relu (row2 h p))))) q := by
  unfold k0_pay12
  rw [addf_apply, bias_apply]
  show FloatOps.matmul _ _ _ _ _ (ix2 p q) + _ = _
  rw [Cert.LibBlocks.matmul_plain_apply dot_S8x1024_S1024x1024_S8x1024_1_0_0_1_n_n rfl]
  unfold dense
  congr 1
  refine Finset.sum_congr rfl fun k _ => ?_
  rw [truncf_apply, maximumf_apply, broadcast_apply, centre_pre1]
  show max _ (Ideal.ofBits .f32 0x00000000#32) * _ = _
  rw [Ideal.ofBits_zero_f32]
  rfl

/-- Its indicator at (p, q). -/
theorem centre_mask2 (v9 : FVec Ideal S1024x32 .bf16) (v10 : FVec Ideal S32 .f32) (v12 : FVec Ideal S32x1024 .bf16) (v13 : FVec Ideal S1024 .f32) (v15 : FVec Ideal S1024x1024 .bf16) (v16 : FVec Ideal S1024 .f32) (h : FVec Ideal S8x1024 .f32) (p : Fin 8) (q : Fin 1024) :
    k0_pay13 (F := Ideal) v9 v10 v12 v13 v15 v16 h (Scalar.ofBits (F := Ideal) .f32 0x00000000#32) (ix2 p q)
      = indicator (dense (mat v15) (vec v16) (relu (dense (mat v12) (vec v13) (dense (mat v9) (vec v10) (relu (row2 h p))))) q) := by
  unfold k0_pay13
  rw [mask_apply, centre_pre2]

/-- The zero row the last rectifier compares with. -/
theorem zero_row (i : S8x1024.Idx) : k0_pay14 (F := Ideal) i = 0 := by
  unfold k0_pay14
  rw [broadcast_apply]
  exact Ideal.ofBits_zero_f32

end Cert.Nrae.KernelSide

end
-- ==== Proof.KernelLoss.lean ====
/-
  The kernel's loss on one block, from the codes, the second pre-activation and the two indicators.

  Given the centres' codes zc [8, 32], the neighbours' codes zn [256, 32], the decoder's second pre-activation a2 [8, 1024] with the
  row z0 it is rectified against, and the two indicators m1, m2 [8, 1024], the body forms: the reconstruction of centre p (the
  third decoder layer on max(a2, z0)); the direction zn − zc of each pair; the derivative's row (the direction through the three
  weight matrices, multiplied after the first by m1 and after the second by m2, each indicator repeated over the centre's 32
  neighbours); the squared error of neighbour − (reconstruction + derivative row) summed over the 3072 lanes; the pair's weight
  from the distance of centre and neighbour; and the sum over the 32 neighbours of weight · squared error, kept as a column.
-/
import proofs.«164909_j16423954940420_1_alg».proof.Proof.Gen.KernelIdeal.Skeleton
import proofs.«164909_j16423954940420_1_alg».proof.Proof.Nrae
import proofs.«164909_j16423954940420_1_alg».proof.Proof.LibBlocks
import proofs.«164909_j16423954940420_1_alg».proof.Proof.LibLaneSum
import proofs.«164909_j16423954940420_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Nrae.KernelSide

open Idealize.ShloMosaic Idealize.ShloMosaic.ValueIdx Cert.KernelIdeal Cert.KernelIdeal.Gen Cert.Nrae

/-- The reconstruction of centre p, from the second pre-activation. -/
def blockRecon (v18 : FVec Ideal S1024x3072 .bf16) (v19 : FVec Ideal S3072 .f32) (a2 : FVec Ideal S8x1024 .f32) (z0 : FVec Ideal S8x1024 .f32) (p : Fin 8) : Fin 3072 → EReal :=
  dense (mat v18) (vec v19) (fun k => max (a2 (ix2 p k)) (z0 (ix2 p k)))

/-- The derivative's row of pair (p, n), with the indicators as factors. -/
def blockJac (v12 : FVec Ideal S32x1024 .bf16) (v15 : FVec Ideal S1024x1024 .bf16) (v18 : FVec Ideal S1024x3072 .bf16) (zc : FVec Ideal S8x32 .f32) (zn : FVec Ideal S256x32 .f32) (m1 : FVec Ideal S8x1024 .f32) (m2 : FVec Ideal S8x1024 .f32) (p : Fin 8) (n : Fin 32) : Fin 3072 → EReal :=
  lin (mat v18) (fun k => lin (mat v15) (fun k' => lin (mat v12) (fun j => zn (ix2 (flat8 p n) j) - zc (ix2 p j)) k' * m1 (ix2 p k')) k * m2 (ix2 p k))

/-! ## Layout steps read at coordinates -/

section Layout

variable {α : Type}

/-- 256 rows viewed as 8 blocks of 32: entry (p, n, c) is entry c of row p · 32 + n. -/
private theorem rows_split_apply {C : Nat} (x : (⟨2, ![256, C]⟩ : Shape).Idx → α)
    (h : (⟨2, ![256, C]⟩ : Shape).ShapeCasts ⟨3, ![8, 32, C]⟩) (p : Fin 8) (n : Fin 32) (c : Fin C) :
    shapeCast ⟨3, ![8, 32, C]⟩ x h (ix3 p n c) = x (ix2 (flat8 p n) c) :=
  shapeCast_apply x h _ _ (by
    rw [Shape.rowMajor_val_two, Shape.rowMajor_val_three]
    rfl)

/-- 8 blocks of 32 rows viewed as 256 rows: entry c of row p · 32 + n is entry (p, n, c). -/
private theorem rows_merge_apply {C : Nat} (y : (⟨3, ![8, 32, C]⟩ : Shape).Idx → α)
    (h : (⟨3, ![8, 32, C]⟩ : Shape).ShapeCasts ⟨2, ![256, C]⟩) (p : Fin 8) (n : Fin 32) (c : Fin C) :
    shapeCast ⟨2, ![256, C]⟩ y h (ix2 (flat8 p n) c) = y (ix3 p n c) :=
  shapeCast_apply y h _ _ (by
    rw [Shape.rowMajor_val_two, Shape.rowMajor_val_three]
    rfl)

/-- A unit axis put in the middle: entry (p, u, c) of the [A, 1, C] view is entry (p, c). -/
private theorem mid_unit_apply {A C : Nat} (x : (⟨2, ![A, C]⟩ : Shape).Idx → α)
    (h : (⟨2, ![A, C]⟩ : Shape).ShapeCasts ⟨3, ![A, 1, C]⟩) (p : Fin A) (u : Fin 1) (c : Fin C) :
    shapeCast ⟨3, ![A, 1, C]⟩ x h (ix3 p u c) = x (ix2 p c) :=
  shapeCast_apply x h _ _ (by
    have hu : u.val = 0 := by omega
    rw [Shape.rowMajor_val_two, Shape.rowMajor_val_three]
    show p.val * C + c.val = (p.val * 1 + u.val) * C + c.val
    rw [hu, Nat.mul_one, Nat.add_zero])

/-- The unit middle axis repeated B times: entry (p, n, c) is entry (p, 0, c). -/
private theorem mid_repeat_apply {A B C : Nat} (x : (⟨3, ![A, 1, C]⟩ : Shape).Idx → α)
    (h : (⟨3, ![A, 1, C]⟩ : Shape).Broadcasts ⟨3, ![A, B, C]⟩) (p : Fin A) (n : Fin B) (c : Fin C) :
    broadcastTo ⟨3, ![A, B, C]⟩ x h (ix3 p n c) = x (ix3 p (0 : Fin 1) c) := by
  refine broadcastTo_apply x h (ix3 p n c) (ix3 p (0 : Fin 1) c) fun ax => ?_
  match ax with
  | ⟨0, _⟩ =>
    show p.val = if A = 1 then 0 else p.val
    split
    · have := p.isLt; omega
    · rfl
  | ⟨1, _⟩ => rfl
  | ⟨2, _⟩ =>
    show c.val = if C = 1 then 0 else c.val
    split
    · have := c.isLt; omega
    · rfl

end Layout

/-- The choice on "x exceeds eps". -/
private theorem choose_gt (x eps a b : EReal) : Scalar.select (Ideal.cmp .ogt x eps) a b = if eps < x then a else b := by
  unfold Scalar.select Ideal.cmp
  by_cases h : eps < x
  · simp [h]
  · simp [h]

/-! ## The stages of the body, each at explicit coordinates -/

/-- The reconstruction: the third decoder layer on max(a2, z0), at (p, d). -/
private theorem recon_apply (hlt : FTy.bits .bf16 < FTy.bits .f32) (hc : S3072.ShapeCasts S1x3072)
    (hb : S1x3072.Broadcasts S8x3072)
    (v18 : FVec Ideal S1024x3072 .bf16) (v19 : FVec Ideal S3072 .f32) (a2 z0 : FVec Ideal S8x1024 .f32)
    (p : Fin 8) (d : Fin 3072) :
    addf (matmul dot_S8x1024_S1024x3072_S8x3072_1_0_0_1_n_n none (truncf .bf16 (maximumf a2 z0) hlt) v18
          (constant (F := Ideal) S8x3072 .f32 0x00000000#32))
        (broadcastTo S8x3072 (shapeCast S1x3072 v19 hc) hb) (ix2 p d)
      = blockRecon v18 v19 a2 z0 p d := by
  rw [addf_apply]
  show FloatOps.matmul _ none _ _ _ _ + _ = _
  rw [Cert.LibBlocks.matmul_plain_apply dot_S8x1024_S1024x3072_S8x3072_1_0_0_1_n_n rfl,
    broadcastTo_1b_ab_apply, shapeCast_a_1a_apply]
  unfold blockRecon dense mat vec
  refine congrArg (· + v19 (ix1 d)) (Finset.sum_congr rfl fun k _ => ?_)
  rw [truncf_apply, maximumf_apply]

/-- The direction of pair (p, n): the neighbour's code less the centre's, at row p · 32 + n. -/
private theorem dir_apply (hlt : FTy.bits .bf16 < FTy.bits .f32) (h1 : S256x32.ShapeCasts S8x32x32)
    (h2 : S8x32.ShapeCasts S8x1x32) (h3 : S8x1x32.Broadcasts S8x32x32) (h4 : S8x32x32.ShapeCasts S256x32)
    (zc : FVec Ideal S8x32 .f32) (zn : FVec Ideal S256x32 .f32) (p : Fin 8) (n : Fin 32) (j : Fin 32) :
    truncf .bf16 (shapeCast S256x32 (subf (shapeCast S8x32x32 zn h1) (broadcastTo S8x32x32 (shapeCast S8x1x32 zc h2) h3)) h4)
        hlt (ix2 (flat8 p n) j)
      = zn (ix2 (flat8 p n) j) - zc (ix2 p j) := by
  rw [truncf_apply, rows_merge_apply, subf_apply, rows_split_apply, mid_repeat_apply, mid_unit_apply]

/-- An [8, 1024] array repeated over each centre's 32 neighbours, at row p · 32 + n: the centre's row. -/
private theorem rep_apply (h1 : S8x1024.ShapeCasts S8x1x1024) (h2 : S8x1x1024.ShapeCasts S8x1x1024)
    (h3 : S8x1x1024.Broadcasts S8x32x1024) (h4 : S8x32x1024.ShapeCasts S256x1024)
    (m : FVec Ideal S8x1024 .f32) (p : Fin 8) (n : Fin 32) (k : Fin 1024) :
    shapeCast S256x1024 (broadcastTo S8x32x1024 (shapeCast S8x1x1024 (shapeCast S8x1x1024 m h1) h2) h3) h4
        (ix2 (flat8 p n) k)
      = m (ix2 p k) := by
  rw [rows_merge_apply, mid_repeat_apply, shapeCast_self, mid_unit_apply]

/-- One layer of the derivative: a product into a zero accumulator, then an entrywise factor. -/
private theorem gated_layer_apply {K N : Nat} (dd : DotDims ⟨2, ![256, K]⟩ ⟨2, ![K, N]⟩ ⟨2, ![256, N]⟩)
    (hd : dd = DotDims.plain 256 K N) (hlt : FTy.bits .bf16 < FTy.bits .f32)
    (x : FVec Ideal ⟨2, ![256, K]⟩ .bf16) (w : FVec Ideal ⟨2, ![K, N]⟩ .bf16) (g : FVec Ideal ⟨2, ![256, N]⟩ .f32)
    (r : Fin 256) (q : Fin N) :
    truncf .bf16 (mulf (matmul dd none x w (constant (F := Ideal) ⟨2, ![256, N]⟩ .f32 0x00000000#32)) g) hlt (ix2 r q)
      = (∑ k : Fin K, x (ix2 r k) * w (ix2 k q)) * g (ix2 r q) := by
  rw [truncf_apply, mulf_apply]
  show FloatOps.matmul _ none _ _ _ _ * _ = _
  rw [Cert.LibBlocks.matmul_plain_apply dd hd]

/-- The derivative's row of pair (p, n), at row p · 32 + n and lane d. -/
private theorem jac_apply (hlt : FTy.bits .bf16 < FTy.bits .f32) (h1 : S256x32.ShapeCasts S8x32x32)
    (h2 : S8x32.ShapeCasts S8x1x32) (h3 : S8x1x32.Broadcasts S8x32x32) (h4 : S8x32x32.ShapeCasts S256x32)
    (g1 : S8x1024.ShapeCasts S8x1x1024) (g2 : S8x1x1024.ShapeCasts S8x1x1024)
    (g3 : S8x1x1024.Broadcasts S8x32x1024) (g4 : S8x32x1024.ShapeCasts S256x1024)
    (v12 : FVec Ideal S32x1024 .bf16) (v15 : FVec Ideal S1024x1024 .bf16) (v18 : FVec Ideal S1024x3072 .bf16)
    (zc : FVec Ideal S8x32 .f32) (zn : FVec Ideal S256x32 .f32) (m1 m2 : FVec Ideal S8x1024 .f32)
    (p : Fin 8) (n : Fin 32) (d : Fin 3072) :
    matmul dot_S256x1024_S1024x3072_S256x3072_1_0_0_1_n_n none
        (truncf .bf16 (mulf (matmul dot_S256x1024_S1024x1024_S256x1024_1_0_0_1_n_n none
            (truncf .bf16 (mulf (matmul dot_S256x32_S32x1024_S256x1024_1_0_0_1_n_n none
                (truncf .bf16 (shapeCast S256x32 (subf (shapeCast S8x32x32 zn h1) (broadcastTo S8x32x32 (shapeCast S8x1x32 zc h2) h3)) h4) hlt)
                v12 (constant (F := Ideal) S256x1024 .f32 0x00000000#32))
              (shapeCast S256x1024 (broadcastTo S8x32x1024 (shapeCast S8x1x1024 (shapeCast S8x1x1024 m1 g1) g2) g3) g4)) hlt)
            v15 (constant (F := Ideal) S256x1024 .f32 0x00000000#32))
          (shapeCast S256x1024 (broadcastTo S8x32x1024 (shapeCast S8x1x1024 (shapeCast S8x1x1024 m2 g1) g2) g3) g4)) hlt)
        v18 (constant (F := Ideal) S256x3072 .f32 0x00000000#32) (ix2 (flat8 p n) d)
      = blockJac v12 v15 v18 zc zn m1 m2 p n d := by
  show FloatOps.matmul _ none _ _ _ _ = _
  rw [Cert.LibBlocks.matmul_plain_apply dot_S256x1024_S1024x3072_S256x3072_1_0_0_1_n_n rfl]
  unfold blockJac lin mat
  refine Finset.sum_congr rfl fun k _ => ?_
  rw [gated_layer_apply dot_S256x1024_S1024x1024_S256x1024_1_0_0_1_n_n rfl, rep_apply]
  refine congrArg (fun t => t * m2 (ix2 p k) * v18 (ix2 k d)) (Finset.sum_congr rfl fun k' _ => ?_)
  rw [gated_layer_apply dot_S256x32_S32x1024_S256x1024_1_0_0_1_n_n rfl, rep_apply]
  refine congrArg (fun t => t * m1 (ix2 p k') * v15 (ix2 k' k)) (Finset.sum_congr rfl fun j _ => ?_)
  rw [dir_apply]

/-- The squared error of pair (p, n): neighbour less (reconstruction + derivative row), squared and summed over the lanes. -/
private theorem sqerr_apply (h1 : S256x3072.ShapeCasts S8x32x3072) (h2 : S8x3072.ShapeCasts S8x1x3072)
    (h3 : S8x1x3072.Broadcasts S8x32x3072) (hr : S8x32x3072.Reduces [2] S8x32) (hφ : FKind.Formats .f32)
    (hacc : (0x00000000#32 : BitVec 32) = 0x00000000#32)
    (v1 : FVec Ideal S8x32x3072 .f32) (rc : FVec Ideal S8x3072 .f32) (jc : FVec Ideal S256x3072 .f32)
    (p : Fin 8) (n : Fin 32) :
    multiReduction (F := Ideal) .add [2] S8x32
        (mulf (subf v1 (addf (broadcastTo S8x32x3072 (shapeCast S8x1x3072 rc h2) h3) (shapeCast S8x32x3072 jc h1)))
          (subf v1 (addf (broadcastTo S8x32x3072 (shapeCast S8x1x3072 rc h2) h3) (shapeCast S8x32x3072 jc h1))))
        0x00000000#32 hr hφ hacc (ix2 p n)
      = ∑ d : Fin 3072, (v1 (ix3 p n d) - (rc (ix2 p d) + jc (ix2 (flat8 p n) d))) *
          (v1 (ix3 p n d) - (rc (ix2 p d) + jc (ix2 (flat8 p n) d))) := by
  refine (Cert.LibLaneSum.sum_last3 _ _ hr hφ hacc p n).trans ?_
  refine Finset.sum_congr rfl fun d _ => ?_
  rw [mulf_apply, subf_apply, addf_apply, mid_repeat_apply, mid_unit_apply, rows_split_apply]

/-- The weight of pair (p, n): the choice on "the distance of centre and neighbour exceeds the threshold". -/
private theorem weight_apply (h2 : S8x3072.ShapeCasts S8x1x3072) (h3 : S8x1x3072.Broadcasts S8x32x3072)
    (hr : S8x32x3072.Reduces [2] S8x32) (hφ : FKind.Formats .f32)
    (hacc : (0x00000000#32 : BitVec 32) = 0x00000000#32)
    (v0 : FVec Ideal S8x3072 .f32) (v1 : FVec Ideal S8x32x3072 .f32) (p : Fin 8) (n : Fin 32) :
    select (cmpf .ogt
          (sqrt (multiReduction (F := Ideal) .add [2] S8x32
            (mulf (subf (broadcastTo S8x32x3072 (shapeCast S8x1x3072 v0 h2) h3) v1)
              (subf (broadcastTo S8x32x3072 (shapeCast S8x1x3072 v0 h2) h3) v1))
            0x00000000#32 hr hφ hacc))
          (broadcast S8x32 (Scalar.ofBits (F := Ideal) .f32 0x2B8CBCCC#32)))
        (broadcast S8x32 (Scalar.ofBits (F := Ideal) .f32 0x3F800000#32))
        (broadcast S8x32 (Scalar.ofBits (F := Ideal) .f32 0x3F000000#32)) (ix2 p n)
      = weight (row2 v0 p) (row3 v1 p n) := by
  have hs : multiReduction (F := Ideal) .add [2] S8x32
        (mulf (subf (broadcastTo S8x32x3072 (shapeCast S8x1x3072 v0 h2) h3) v1)
          (subf (broadcastTo S8x32x3072 (shapeCast S8x1x3072 v0 h2) h3) v1))
        0x00000000#32 hr hφ hacc (ix2 p n)
      = ∑ d : Fin 3072, (row2 v0 p d - row3 v1 p n d) * (row2 v0 p d - row3 v1 p n d) := by
    refine (Cert.LibLaneSum.sum_last3 _ _ hr hφ hacc p n).trans ?_
    refine Finset.sum_congr rfl fun d _ => ?_
    rw [mulf_apply, subf_apply, mid_repeat_apply, mid_unit_apply]
    rfl
  show Scalar.select (Ideal.cmp .ogt (Ideal.sqrt (multiReduction (F := Ideal) .add [2] S8x32 _ 0x00000000#32 hr hφ hacc (ix2 p n)))
      (Ideal.ofBits .f32 0x2B8CBCCC#32)) (Ideal.ofBits .f32 0x3F800000#32) (Ideal.ofBits .f32 0x3F000000#32) = _
  rw [choose_gt, hs]
  rfl

/-- The block's column at (p, 0): the sum over the 32 neighbours of weight · squared error. -/
theorem block_loss (v0 : FVec Ideal S8x3072 .f32) (v1 : FVec Ideal S8x32x3072 .f32) (v12 : FVec Ideal S32x1024 .bf16) (v15 : FVec Ideal S1024x1024 .bf16) (v18 : FVec Ideal S1024x3072 .bf16) (v19 : FVec Ideal S3072 .f32) (zc : FVec Ideal S8x32 .f32) (zn : FVec Ideal S256x32 .f32) (m1 : FVec Ideal S8x1024 .f32) (a2 : FVec Ideal S8x1024 .f32) (m2 : FVec Ideal S8x1024 .f32) (z0 : FVec Ideal S8x1024 .f32) (p : Fin 8) (u : Fin 1) :
    k0_pay15 (F := Ideal) v0 v1 v12 v15 v18 v19 zc zn m1 a2 m2 z0 (ix2 p u)
      = ∑ n : Fin 32, weight (row2 v0 p) (row3 v1 p n) *
          ∑ d : Fin 3072,
            (v1 (ix3 p n d) - (blockRecon v18 v19 a2 z0 p d + blockJac v12 v15 v18 zc zn m1 m2 p n d)) *
            (v1 (ix3 p n d) - (blockRecon v18 v19 a2 z0 p d + blockJac v12 v15 v18 zc zn m1 m2 p n d)) := by
  unfold k0_pay15
  rw [Cert.Proof.Column.shapeCast_a_a1_apply]
  refine (Cert.LibLaneSum.sum_last2 _ _ _ _ _ p).trans ?_
  refine Finset.sum_congr rfl fun n _ => ?_
  rw [mulf_apply, weight_apply, sqerr_apply]
  refine congrArg (weight (row2 v0 p) (row3 v1 p n) * ·) (Finset.sum_congr rfl fun d _ => ?_)
  rw [recon_apply, jac_apply]

end Cert.Nrae.KernelSide

end
-- ==== Proof.KernelBlock.lean ====
/-
  What one grid point writes: the block's column, as the loss terms of its 8 centres.

  At a grid point the body loads the 8 centres, their 8·32 neighbours and the twelve parameter arrays, and stores one column
  [8, 1]. Its entry (p, 0) is the sum over the 32 neighbours n of centre p of the pair's loss term: the body's stages are the
  encoder on the centres and on the neighbours, the decoder at the centres' codes with the two indicators of positive
  pre-activation, and the loss from those; a product with a 0/1 indicator is the gate of the decoder's derivative.
-/
import proofs.«164909_j16423954940420_1_alg».proof.Proof.Gen.KernelIdeal.Frame
import proofs.«164909_j16423954940420_1_alg».proof.Proof.KernelDecoder
import proofs.«164909_j16423954940420_1_alg».proof.Proof.KernelLoss

noncomputable section

open scoped BigOperators

namespace Cert.Nrae.KernelSide

open Idealize.ShloMosaic Idealize.ShloMosaic.ValueIdx Cert.KernelIdeal Cert.KernelIdeal.Gen Cert.Nrae

/-- The zero offsets of a one-axis and of a three-axis block, as the constant function. -/
theorem off1_zero : (![0] : Fin 1 → Nat) = fun _ => 0 := funext fun a => by fin_cases a; rfl
theorem off3_zero : (![0, 0, 0] : Fin 3 → Nat) = fun _ => 0 := funext fun a => by fin_cases a <;> rfl

/-- The body's stored column as its last payload of the loaded blocks (the loads read the whole blocks, the one store
    writes the whole column). -/
theorem out_eq_payload (x0 : FVec Ideal S8x3072 .f32) (x1 : FVec Ideal S8x32x3072 .f32) (x2 : FVec Ideal S3072x1024 .bf16) (x3 : FVec Ideal S1024 .f32) (x4 : FVec Ideal S1024x1024 .bf16) (x5 : FVec Ideal S1024 .f32) (x6 : FVec Ideal S1024x32 .bf16) (x7 : FVec Ideal S32 .f32) (x8 : FVec Ideal S32x1024 .bf16) (x9 : FVec Ideal S1024 .f32) (x10 : FVec Ideal S1024x1024 .bf16) (x11 : FVec Ideal S1024 .f32) (x12 : FVec Ideal S1024x3072 .bf16) (x13 : FVec Ideal S3072 .f32) :
    out0_14 (F := Ideal) x0 x1 x2 x3 x4 x5 x6 x7 x8 x9 x10 x11 x12 x13
      = k0_pay15 (F := Ideal) x0 x1 x8 x10 x12 x13
          (k0_pay8 (F := Ideal) x6 x7 (k0_pay7 (F := Ideal) x0 x2 x3 x4 x5) (Scalar.ofBits (F := Ideal) .f32 0x00000000#32))
          (k0_pay9 (F := Ideal) x1 x2 x3 x4 x5 x6 x7)
          (k0_pay11 (F := Ideal) x6 x7 x8 x9 (k0_pay7 (F := Ideal) x0 x2 x3 x4 x5) (Scalar.ofBits (F := Ideal) .f32 0x00000000#32))
          (k0_pay12 (F := Ideal) x6 x7 x8 x9 x10 x11 (k0_pay7 (F := Ideal) x0 x2 x3 x4 x5) (Scalar.ofBits (F := Ideal) .f32 0x00000000#32))
          (k0_pay13 (F := Ideal) x6 x7 x8 x9 x10 x11 (k0_pay7 (F := Ideal) x0 x2 x3 x4 x5) (Scalar.ofBits (F := Ideal) .f32 0x00000000#32))
          (k0_pay14 (F := Ideal)) := by
  unfold out0_14
  rw [View.canon_unit_zero Cert.LibBlocks.off2_zero]
  simp only [View.ld_unit_zero (S := S8x3072) Cert.LibBlocks.off2_zero, View.ld_unit_zero (S := S8x32x3072) off3_zero,
    View.ld_unit_zero (S := S3072x1024) Cert.LibBlocks.off2_zero, View.ld_unit_zero (S := S1024) off1_zero,
    View.ld_unit_zero (S := S1024x1024) Cert.LibBlocks.off2_zero, View.ld_unit_zero (S := S1024x32) Cert.LibBlocks.off2_zero,
    View.ld_unit_zero (S := S32) off1_zero, View.ld_unit_zero (S := S32x1024) Cert.LibBlocks.off2_zero,
    View.ld_unit_zero (S := S1024x3072) Cert.LibBlocks.off2_zero, View.ld_unit_zero (S := S3072) off1_zero,
    weights1, weights2, weights3, weights4, weights5, weights6]

/-- The block's column at (p, 0): the sum over the 32 neighbours of centre p of the pair's loss term. -/
theorem block_value (x0 : FVec Ideal S8x3072 .f32) (x1 : FVec Ideal S8x32x3072 .f32) (x2 : FVec Ideal S3072x1024 .bf16) (x3 : FVec Ideal S1024 .f32) (x4 : FVec Ideal S1024x1024 .bf16) (x5 : FVec Ideal S1024 .f32) (x6 : FVec Ideal S1024x32 .bf16) (x7 : FVec Ideal S32 .f32) (x8 : FVec Ideal S32x1024 .bf16) (x9 : FVec Ideal S1024 .f32) (x10 : FVec Ideal S1024x1024 .bf16) (x11 : FVec Ideal S1024 .f32) (x12 : FVec Ideal S1024x3072 .bf16) (x13 : FVec Ideal S3072 .f32) (p : Fin 8) (u : Fin 1) :
    out0_14 (F := Ideal) x0 x1 x2 x3 x4 x5 x6 x7 x8 x9 x10 x11 x12 x13 (ix2 p u)
      = ∑ n : Fin 32, term (netOf x2 x3 x4 x5 x6 x7 x8 x9 x10 x11 x12 x13) (row2 x0 p) (row3 x1 p n) := by
  rw [out_eq_payload, block_loss]
  -- the centres' second hidden pre-activation, row p
  have hH : row2 (k0_pay7 (F := Ideal) x0 x2 x3 x4 x5) p
      = dense (mat x4) (vec x5) (relu (dense (mat x2) (vec x3) (row2 x0 p))) :=
    funext fun q => centre_hidden x0 x2 x3 x4 x5 p q
  -- the code of centre p
  have hZc : ∀ j : Fin 32, k0_pay8 (F := Ideal) x6 x7 (k0_pay7 (F := Ideal) x0 x2 x3 x4 x5) (Scalar.ofBits (F := Ideal) .f32 0x00000000#32) (ix2 p j)
      = enc (netOf x2 x3 x4 x5 x6 x7 x8 x9 x10 x11 x12 x13) (row2 x0 p) j := by
    intro j
    rw [centre_code, hH]
    rfl
  -- the decoder's two pre-activations at that code
  have hP1 : dense (mat x8) (vec x9) (dense (mat x6) (vec x7) (relu (row2 (k0_pay7 (F := Ideal) x0 x2 x3 x4 x5) p)))
      = pre1 (netOf x2 x3 x4 x5 x6 x7 x8 x9 x10 x11 x12 x13) (enc (netOf x2 x3 x4 x5 x6 x7 x8 x9 x10 x11 x12 x13) (row2 x0 p)) := by
    rw [hH]; rfl
  have hP2 : dense (mat x10) (vec x11) (relu (dense (mat x8) (vec x9) (dense (mat x6) (vec x7) (relu (row2 (k0_pay7 (F := Ideal) x0 x2 x3 x4 x5) p)))))
      = pre2 (netOf x2 x3 x4 x5 x6 x7 x8 x9 x10 x11 x12 x13) (enc (netOf x2 x3 x4 x5 x6 x7 x8 x9 x10 x11 x12 x13) (row2 x0 p)) := by
    rw [hH]; rfl
  refine Finset.sum_congr rfl fun n _ => ?_
  unfold term nloss
  refine congrArg (weight (row2 x0 p) (row3 x1 p n) * ·) (Finset.sum_congr rfl fun d _ => ?_)
  -- the reconstruction of centre p
  have hR : blockRecon x12 x13
        (k0_pay12 (F := Ideal) x6 x7 x8 x9 x10 x11 (k0_pay7 (F := Ideal) x0 x2 x3 x4 x5) (Scalar.ofBits (F := Ideal) .f32 0x00000000#32))
        (k0_pay14 (F := Ideal)) p d
      = recon (netOf x2 x3 x4 x5 x6 x7 x8 x9 x10 x11 x12 x13) (enc (netOf x2 x3 x4 x5 x6 x7 x8 x9 x10 x11 x12 x13) (row2 x0 p)) d := by
    unfold blockRecon
    simp only [centre_pre2, zero_row]
    rw [hP2]
    rfl
  -- the derivative's row of pair (p, n): the products with the indicators are the gates
  have hJ : blockJac x8 x10 x12
        (k0_pay8 (F := Ideal) x6 x7 (k0_pay7 (F := Ideal) x0 x2 x3 x4 x5) (Scalar.ofBits (F := Ideal) .f32 0x00000000#32))
        (k0_pay9 (F := Ideal) x1 x2 x3 x4 x5 x6 x7)
        (k0_pay11 (F := Ideal) x6 x7 x8 x9 (k0_pay7 (F := Ideal) x0 x2 x3 x4 x5) (Scalar.ofBits (F := Ideal) .f32 0x00000000#32))
        (k0_pay13 (F := Ideal) x6 x7 x8 x9 x10 x11 (k0_pay7 (F := Ideal) x0 x2 x3 x4 x5) (Scalar.ofBits (F := Ideal) .f32 0x00000000#32)) p n d
      = jac (netOf x2 x3 x4 x5 x6 x7 x8 x9 x10 x11 x12 x13) (enc (netOf x2 x3 x4 x5 x6 x7 x8 x9 x10 x11 x12 x13) (row2 x0 p))
          (fun k => enc (netOf x2 x3 x4 x5 x6 x7 x8 x9 x10 x11 x12 x13) (row3 x1 p n) k
            - enc (netOf x2 x3 x4 x5 x6 x7 x8 x9 x10 x11 x12 x13) (row2 x0 p) k) d := by
    unfold blockJac
    simp only [centre_mask1, centre_mask2, neighbour_code, mul_indicator, hZc]
    rw [hP2, hP1]
    rfl
  rw [hR, hJ]
  rfl

end Cert.Nrae.KernelSide

end
-- ==== Proof.KernelArray.lean ====
/-
  From the blocks to the whole run: the column the kernel's region leaves, and the loss after the two host lines that follow it.

  The region runs the body at 16 grid points. Point t reads rows 8t … 8t + 7 of the centres and of the neighbours and the whole
  of each parameter array (the six matrices as the host narrowed them before the region: the same extended reals), and writes
  rows 8t … 8t + 7 of a column [128, 1]. Row r of the column is therefore written once, by point r / 8, and holds the sum over
  the 32 neighbours of centre r of the pair's loss term. The host then sums the column from zero and divides by 4096: the whole
  loss, since a sum over all centres of the sums over their neighbours is the sum over all pairs.
-/
import proofs.«164909_j16423954940420_1_alg».proof.Proof.Gen.KernelIdeal.Frame
import proofs.«164909_j16423954940420_1_alg».proof.Proof.KernelBlock
import Idealize.ShloMosaic.Lib.Pipeline.Value
import Idealize.ShloMosaic.Lib.StableHlo.Run
import Idealize.ShloMosaic.Lib.ReduceAll

noncomputable section

open scoped BigOperators

namespace Cert.Nrae.KernelSide

open Idealize.ShloMosaic Idealize.ShloMosaic.ValueIdx Idealize.ShloMosaic.TcCoe Idealize.SL.Sem Cert.KernelIdeal Cert.KernelIdeal.Gen Cert.Nrae

variable (m : (ℓ : Loc nD τ sig) → Buf (Elt Ideal) ℓ) (ρ : Dev nD → PrngReg)

/-! ## The blocks and the arrays, by their literal types -/

abbrev blk0 (c : Dev nD) (t : Fin cfg0.N) : FVec Ideal S8x3072 .f32 := iblk m c 0 t
abbrev blk1 (c : Dev nD) (t : Fin cfg0.N) : FVec Ideal S8x32x3072 .f32 := iblk m c 1 t
abbrev blk2 (c : Dev nD) (t : Fin cfg0.N) : FVec Ideal S3072x1024 .bf16 := iblk m c 2 t
abbrev blk3 (c : Dev nD) (t : Fin cfg0.N) : FVec Ideal S1024 .f32 := iblk m c 3 t
abbrev blk4 (c : Dev nD) (t : Fin cfg0.N) : FVec Ideal S1024x1024 .bf16 := iblk m c 4 t
abbrev blk5 (c : Dev nD) (t : Fin cfg0.N) : FVec Ideal S1024 .f32 := iblk m c 5 t
abbrev blk6 (c : Dev nD) (t : Fin cfg0.N) : FVec Ideal S1024x32 .bf16 := iblk m c 6 t
abbrev blk7 (c : Dev nD) (t : Fin cfg0.N) : FVec Ideal S32 .f32 := iblk m c 7 t
abbrev blk8 (c : Dev nD) (t : Fin cfg0.N) : FVec Ideal S32x1024 .bf16 := iblk m c 8 t
abbrev blk9 (c : Dev nD) (t : Fin cfg0.N) : FVec Ideal S1024 .f32 := iblk m c 9 t
abbrev blk10 (c : Dev nD) (t : Fin cfg0.N) : FVec Ideal S1024x1024 .bf16 := iblk m c 10 t
abbrev blk11 (c : Dev nD) (t : Fin cfg0.N) : FVec Ideal S1024 .f32 := iblk m c 11 t
abbrev blk12 (c : Dev nD) (t : Fin cfg0.N) : FVec Ideal S1024x3072 .bf16 := iblk m c 12 t
abbrev blk13 (c : Dev nD) (t : Fin cfg0.N) : FVec Ideal S3072 .f32 := iblk m c 13 t

abbrev arr0 (c : Dev nD) : FVec Ideal S128x3072 .f32 := V m c main_arg0
abbrev arr1 (c : Dev nD) : FVec Ideal S128x32x3072 .f32 := V m c main_arg1
abbrev arr2 (c : Dev nD) : FVec Ideal S3072x1024 .bf16 := V m c main_v0
abbrev arr3 (c : Dev nD) : FVec Ideal S1024 .f32 := V m c main_arg3
abbrev arr4 (c : Dev nD) : FVec Ideal S1024x1024 .bf16 := V m c main_v1
abbrev arr5 (c : Dev nD) : FVec Ideal S1024 .f32 := V m c main_arg5
abbrev arr6 (c : Dev nD) : FVec Ideal S1024x32 .bf16 := V m c main_v2
abbrev arr7 (c : Dev nD) : FVec Ideal S32 .f32 := V m c main_arg7
abbrev arr8 (c : Dev nD) : FVec Ideal S32x1024 .bf16 := V m c main_v3
abbrev arr9 (c : Dev nD) : FVec Ideal S1024 .f32 := V m c main_arg9
abbrev arr10 (c : Dev nD) : FVec Ideal S1024x1024 .bf16 := V m c main_v4
abbrev arr11 (c : Dev nD) : FVec Ideal S1024 .f32 := V m c main_arg11
abbrev arr12 (c : Dev nD) : FVec Ideal S1024x3072 .bf16 := V m c main_v5
abbrev arr13 (c : Dev nD) : FVec Ideal S3072 .f32 := V m c main_arg13

/-! ## The printed index maps, decided over the 16 grid points -/

/-- The centres', the neighbours' and the column's windows move together along their first axis and stay at block 0 on the others. -/
theorem idx_facts : ∀ t : Fin cfg0.N,
    win0_0.index t (0 : Fin 2) = win0_14.index t (0 : Fin 2) ∧ win0_0.index t (1 : Fin 2) = 0
    ∧ win0_1.index t (0 : Fin 3) = win0_14.index t (0 : Fin 2) ∧ win0_1.index t (1 : Fin 3) = 0 ∧ win0_1.index t (2 : Fin 3) = 0
    ∧ win0_14.index t (1 : Fin 2) = 0 ∧ win0_14.index t (0 : Fin 2) ≤ 15 :=
  (by decide +kernel : ∀ t : Fin grid0.N, _)

/-- Every parameter window is the whole array at every point. -/
theorem idx_whole : ∀ t : Fin cfg0.N,
    win0_2.index t = ![0, 0]
    ∧ win0_3.index t = ![0]
    ∧ win0_4.index t = ![0, 0]
    ∧ win0_5.index t = ![0]
    ∧ win0_6.index t = ![0, 0]
    ∧ win0_7.index t = ![0]
    ∧ win0_8.index t = ![0, 0]
    ∧ win0_9.index t = ![0]
    ∧ win0_10.index t = ![0, 0]
    ∧ win0_11.index t = ![0]
    ∧ win0_12.index t = ![0, 0]
    ∧ win0_13.index t = ![0] :=
  (by decide +kernel : ∀ t : Fin grid0.N, _)

/-- Every block of the column is some point's. -/
theorem idx_onto : ∀ q : Fin 16, ∃ t : Fin cfg0.N, win0_14.index t = ![q.val, 0] :=
  (by decide +kernel : ∀ q : Fin 16, ∃ t : Fin grid0.N, win0_14.index t = ![q.val, 0])

/-- The row of the arrays that local row p of point t is. -/
def rowOf (t : Fin cfg0.N) (p : Fin 8) : Fin 128 :=
  ⟨win0_14.index t (0 : Fin 2) * 8 + p.val, by have := (idx_facts t).2.2.2.2.2.2; have := p.isLt; omega⟩

/-! ## What a point's blocks are, read off the arrays -/

/-- Each parameter window's block is the whole array. -/
theorem whole2 (c : Dev nD) (t : Fin cfg0.N) : mat (blk2 m c t) = mat (arr2 m c) := by
  funext k q
  have e : win0_2.index t = ![0, 0] := (idx_whole t).1
  show V m c main_v0 (((cfg0.win 2).blk t).view.emb (ix2 k q)) = V m c main_v0 (ix2 k q)
  refine congrArg _ (funext fun a => Fin.ext ?_)
  match a with
  | ⟨0, _⟩ => show win0_2.index t (0 : Fin 2) * 3072 + 1 * k.val = k.val; rw [e]; simp
  | ⟨1, _⟩ => show win0_2.index t (1 : Fin 2) * 1024 + 1 * q.val = q.val; rw [e]; simp

theorem whole3 (c : Dev nD) (t : Fin cfg0.N) : vec (blk3 m c t) = vec (arr3 m c) := by
  funext q
  have e : win0_3.index t = ![0] := (idx_whole t).2.1
  show V m c main_arg3 (((cfg0.win 3).blk t).view.emb (ix1 q)) = V m c main_arg3 (ix1 q)
  refine congrArg _ (funext fun a => Fin.ext ?_)
  match a with
  | ⟨0, _⟩ => show win0_3.index t (0 : Fin 1) * 1024 + 1 * q.val = q.val; rw [e]; simp

theorem whole4 (c : Dev nD) (t : Fin cfg0.N) : mat (blk4 m c t) = mat (arr4 m c) := by
  funext k q
  have e : win0_4.index t = ![0, 0] := (idx_whole t).2.2.1
  show V m c main_v1 (((cfg0.win 4).blk t).view.emb (ix2 k q)) = V m c main_v1 (ix2 k q)
  refine congrArg _ (funext fun a => Fin.ext ?_)
  match a with
  | ⟨0, _⟩ => show win0_4.index t (0 : Fin 2) * 1024 + 1 * k.val = k.val; rw [e]; simp
  | ⟨1, _⟩ => show win0_4.index t (1 : Fin 2) * 1024 + 1 * q.val = q.val; rw [e]; simp

theorem whole5 (c : Dev nD) (t : Fin cfg0.N) : vec (blk5 m c t) = vec (arr5 m c) := by
  funext q
  have e : win0_5.index t = ![0] := (idx_whole t).2.2.2.1
  show V m c main_arg5 (((cfg0.win 5).blk t).view.emb (ix1 q)) = V m c main_arg5 (ix1 q)
  refine congrArg _ (funext fun a => Fin.ext ?_)
  match a with
  | ⟨0, _⟩ => show win0_5.index t (0 : Fin 1) * 1024 + 1 * q.val = q.val; rw [e]; simp

theorem whole6 (c : Dev nD) (t : Fin cfg0.N) : mat (blk6 m c t) = mat (arr6 m c) := by
  funext k q
  have e : win0_6.index t = ![0, 0] := (idx_whole t).2.2.2.2.1
  show V m c main_v2 (((cfg0.win 6).blk t).view.emb (ix2 k q)) = V m c main_v2 (ix2 k q)
  refine congrArg _ (funext fun a => Fin.ext ?_)
  match a with
  | ⟨0, _⟩ => show win0_6.index t (0 : Fin 2) * 1024 + 1 * k.val = k.val; rw [e]; simp
  | ⟨1, _⟩ => show win0_6.index t (1 : Fin 2) * 32 + 1 * q.val = q.val; rw [e]; simp

theorem whole7 (c : Dev nD) (t : Fin cfg0.N) : vec (blk7 m c t) = vec (arr7 m c) := by
  funext q
  have e : win0_7.index t = ![0] := (idx_whole t).2.2.2.2.2.1
  show V m c main_arg7 (((cfg0.win 7).blk t).view.emb (ix1 q)) = V m c main_arg7 (ix1 q)
  refine congrArg _ (funext fun a => Fin.ext ?_)
  match a with
  | ⟨0, _⟩ => show win0_7.index t (0 : Fin 1) * 32 + 1 * q.val = q.val; rw [e]; simp

theorem whole8 (c : Dev nD) (t : Fin cfg0.N) : mat (blk8 m c t) = mat (arr8 m c) := by
  funext k q
  have e : win0_8.index t = ![0, 0] := (idx_whole t).2.2.2.2.2.2.1
  show V m c main_v3 (((cfg0.win 8).blk t).view.emb (ix2 k q)) = V m c main_v3 (ix2 k q)
  refine congrArg _ (funext fun a => Fin.ext ?_)
  match a with
  | ⟨0, _⟩ => show win0_8.index t (0 : Fin 2) * 32 + 1 * k.val = k.val; rw [e]; simp
  | ⟨1, _⟩ => show win0_8.index t (1 : Fin 2) * 1024 + 1 * q.val = q.val; rw [e]; simp

theorem whole9 (c : Dev nD) (t : Fin cfg0.N) : vec (blk9 m c t) = vec (arr9 m c) := by
  funext q
  have e : win0_9.index t = ![0] := (idx_whole t).2.2.2.2.2.2.2.1
  show V m c main_arg9 (((cfg0.win 9).blk t).view.emb (ix1 q)) = V m c main_arg9 (ix1 q)
  refine congrArg _ (funext fun a => Fin.ext ?_)
  match a with
  | ⟨0, _⟩ => show win0_9.index t (0 : Fin 1) * 1024 + 1 * q.val = q.val; rw [e]; simp

theorem whole10 (c : Dev nD) (t : Fin cfg0.N) : mat (blk10 m c t) = mat (arr10 m c) := by
  funext k q
  have e : win0_10.index t = ![0, 0] := (idx_whole t).2.2.2.2.2.2.2.2.1
  show V m c main_v4 (((cfg0.win 10).blk t).view.emb (ix2 k q)) = V m c main_v4 (ix2 k q)
  refine congrArg _ (funext fun a => Fin.ext ?_)
  match a with
  | ⟨0, _⟩ => show win0_10.index t (0 : Fin 2) * 1024 + 1 * k.val = k.val; rw [e]; simp
  | ⟨1, _⟩ => show win0_10.index t (1 : Fin 2) * 1024 + 1 * q.val = q.val; rw [e]; simp

theorem whole11 (c : Dev nD) (t : Fin cfg0.N) : vec (blk11 m c t) = vec (arr11 m c) := by
  funext q
  have e : win0_11.index t = ![0] := (idx_whole t).2.2.2.2.2.2.2.2.2.1
  show V m c main_arg11 (((cfg0.win 11).blk t).view.emb (ix1 q)) = V m c main_arg11 (ix1 q)
  refine congrArg _ (funext fun a => Fin.ext ?_)
  match a with
  | ⟨0, _⟩ => show win0_11.index t (0 : Fin 1) * 1024 + 1 * q.val = q.val; rw [e]; simp

theorem whole12 (c : Dev nD) (t : Fin cfg0.N) : mat (blk12 m c t) = mat (arr12 m c) := by
  funext k q
  have e : win0_12.index t = ![0, 0] := (idx_whole t).2.2.2.2.2.2.2.2.2.2.1
  show V m c main_v5 (((cfg0.win 12).blk t).view.emb (ix2 k q)) = V m c main_v5 (ix2 k q)
  refine congrArg _ (funext fun a => Fin.ext ?_)
  match a with
  | ⟨0, _⟩ => show win0_12.index t (0 : Fin 2) * 1024 + 1 * k.val = k.val; rw [e]; simp
  | ⟨1, _⟩ => show win0_12.index t (1 : Fin 2) * 3072 + 1 * q.val = q.val; rw [e]; simp

theorem whole13 (c : Dev nD) (t : Fin cfg0.N) : vec (blk13 m c t) = vec (arr13 m c) := by
  funext q
  have e : win0_13.index t = ![0] := (idx_whole t).2.2.2.2.2.2.2.2.2.2.2
  show V m c main_arg13 (((cfg0.win 13).blk t).view.emb (ix1 q)) = V m c main_arg13 (ix1 q)
  refine congrArg _ (funext fun a => Fin.ext ?_)
  match a with
  | ⟨0, _⟩ => show win0_13.index t (0 : Fin 1) * 3072 + 1 * q.val = q.val; rw [e]; simp

/-- So the network of a point's parameter blocks is the network of the arrays. -/
theorem net_blk (c : Dev nD) (t : Fin cfg0.N) : (netOf (blk2 m c t) (blk3 m c t) (blk4 m c t) (blk5 m c t) (blk6 m c t) (blk7 m c t) (blk8 m c t) (blk9 m c t) (blk10 m c t) (blk11 m c t) (blk12 m c t) (blk13 m c t)) = (netOf (arr2 m c) (arr3 m c) (arr4 m c) (arr5 m c) (arr6 m c) (arr7 m c) (arr8 m c) (arr9 m c) (arr10 m c) (arr11 m c) (arr12 m c) (arr13 m c)) := by
  unfold netOf
  rw [whole2, whole3, whole4, whole5, whole6, whole7, whole8, whole9, whole10, whole11, whole12, whole13]

/-- Local row p of the centres' block at point t is row 8t + p of the centres. -/
theorem row_centre (c : Dev nD) (t : Fin cfg0.N) (p : Fin 8) : row2 (blk0 m c t) p = row2 (arr0 m c) (rowOf t p) := by
  funext d
  obtain ⟨e0, e1, -⟩ := idx_facts t
  show V m c main_arg0 (((cfg0.win 0).blk t).view.emb (ix2 p d)) = V m c main_arg0 (ix2 (rowOf t p) d)
  refine congrArg _ (funext fun a => Fin.ext ?_)
  match a with
  | ⟨0, _⟩ => show win0_0.index t (0 : Fin 2) * 8 + 1 * p.val = win0_14.index t (0 : Fin 2) * 8 + p.val; rw [e0]; omega
  | ⟨1, _⟩ => show win0_0.index t (1 : Fin 2) * 3072 + 1 * d.val = d.val; rw [e1]; omega

/-- Local row (p, n) of the neighbours' block at point t is row (8t + p, n) of the neighbours. -/
theorem row_neighbour (c : Dev nD) (t : Fin cfg0.N) (p : Fin 8) (n : Fin 32) :
    row3 (blk1 m c t) p n = row3 (arr1 m c) (rowOf t p) n := by
  funext d
  obtain ⟨-, -, e2, e3, e4, -⟩ := idx_facts t
  show V m c main_arg1 (((cfg0.win 1).blk t).view.emb (ix3 p n d)) = V m c main_arg1 (ix3 (rowOf t p) n d)
  refine congrArg _ (funext fun a => Fin.ext ?_)
  match a with
  | ⟨0, _⟩ => show win0_1.index t (0 : Fin 3) * 8 + 1 * p.val = win0_14.index t (0 : Fin 2) * 8 + p.val; rw [e2]; omega
  | ⟨1, _⟩ => show win0_1.index t (1 : Fin 3) * 32 + 1 * n.val = n.val; rw [e3]; omega
  | ⟨2, _⟩ => show win0_1.index t (2 : Fin 3) * 3072 + 1 * d.val = d.val; rw [e4]; omega

/-! ## The column -/

/-- The column the region leaves, as one function of the arrays: row r holds the sum over the 32 neighbours of centre r of
    the pair's loss term. -/
def column (P : Net) (xc : FVec Ideal S128x3072 .f32) (xn : FVec Ideal S128x32x3072 .f32) : FVec Ideal S128x1 .f32 :=
  fun i => ∑ n : Fin 32, term P (row2 xc (i 0)) (row3 xn (i 0) n)

/-- What point t writes back is block t of the column. -/
theorem flushed_eq (c : Dev nD) (t : Fin cfg0.N) :
    (dats m 0 c).flushed 14 t
      = ((cfg0.win 14).blk t).view.read (Elt Ideal) (column (netOf (arr2 m c) (arr3 m c) (arr4 m c) (arr5 m c) (arr6 m c) (arr7 m c) (arr8 m c) (arr9 m c) (arr10 m c) (arr11 m c) (arr12 m c) (arr13 m c)) (arr0 m c) (arr1 m c)) := by
  show (cfg0.win 14).cut (grid0.coords t) ((dats m 0 c).after 14 t) = _
  rw [after0_14]
  funext j
  obtain ⟨p, u, rfl⟩ : ∃ (p : Fin 8) (u : Fin 1), j = ix2 p u := ⟨j 0, j 1, eq_ix2 j⟩
  show out0_14 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (ix2 p u)
    = column (netOf (arr2 m c) (arr3 m c) (arr4 m c) (arr5 m c) (arr6 m c) (arr7 m c) (arr8 m c) (arr9 m c) (arr10 m c) (arr11 m c) (arr12 m c) (arr13 m c)) (arr0 m c) (arr1 m c) (((cfg0.win 14).blk t).view.emb (ix2 p u))
  refine (block_value (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) p u).trans ?_
  have hrow : (((cfg0.win 14).blk t).view.emb (ix2 p u)) 0 = rowOf t p :=
    Fin.ext (by show win0_14.index t (0 : Fin 2) * 8 + 1 * p.val = win0_14.index t (0 : Fin 2) * 8 + p.val; omega)
  unfold column
  rw [hrow, net_blk]
  refine Finset.sum_congr rfl fun n _ => ?_
  rw [row_centre, row_neighbour]

/-- An index of the column is in point t's block iff each coordinate is in the block's range on its axis. -/
theorem mem_blk (t : Fin cfg0.N) (i : S128x1.Idx) :
    i ∈ ((cfg0.win 14).blk t).view.set ↔ ∀ a : Fin 2, win0_14.index t a * S8x1.size a ≤ (i a).val ∧ (i a).val < win0_14.index t a * S8x1.size a + S8x1.size a := by
  show i ∈ ((View.whole main_v6).slice (win0_14.rect t)).set ↔ _
  rw [View.set_slice_whole, Rect.mem_set_unit]
  exact Iff.rfl

/-- Every row of the column is written by some point: row r by the point whose block index is r / 8. -/
theorem cover (i : S128x1.Idx) : ∃ t : Fin cfg0.N, (cfg0.win 14).flush t = true ∧ i ∈ ((cfg0.win 14).blk t).view.set := by
  have hi0 : (i 0).val < 128 := (i 0).isLt
  have hi1 : (i 1).val < 1 := (i 1).isLt
  obtain ⟨t, ht⟩ := idx_onto ⟨(i 0).val / 8, by omega⟩
  have q0 : win0_14.index t (0 : Fin 2) = (i 0).val / 8 := congrFun ht 0
  have q1 : win0_14.index t (1 : Fin 2) = 0 := congrFun ht 1
  refine ⟨t, flush0_14 t, ?_⟩
  rw [mem_blk]
  intro a
  match a with
  | ⟨0, _⟩ => show win0_14.index t (0 : Fin 2) * 8 ≤ (i 0).val ∧ (i 0).val < win0_14.index t (0 : Fin 2) * 8 + 8; omega
  | ⟨1, _⟩ => show win0_14.index t (1 : Fin 2) * 1 ≤ (i 1).val ∧ (i 1).val < win0_14.index t (1 : Fin 2) * 1 + 1; omega

/-- The column after the run. -/
theorem final (c : Dev nD) : (dats m 0 c).arrAt 14 cfg0.N = column (netOf (arr2 m c) (arr3 m c) (arr4 m c) (arr5 m c) (arr6 m c) (arr7 m c) (arr8 m c) (arr9 m c) (arr10 m c) (arr11 m c) (arr12 m c) (arr13 m c)) (arr0 m c) (arr1 m c) :=
  (dats m 0 c).arrAt_eq_of_cover 14 _ (fun t _ => flushed_eq m c t) cover

/-! ## The arrays as launched -/

/-- The host narrows main_arg2 before the region; the region finds the narrowed array. -/
theorem arr2_eq (c : Dev nD) : arr2 m c = truncf .bf16 (m ((c : Thread nD τ).loc main_arg2)) bitsLt_bf16_f32 := by
  show StableHlo.after hostOps0 (fun b => m (c, b)) (Proc.devRef .tc main_v0) = _
  after_results

/-- The host narrows main_arg4 before the region; the region finds the narrowed array. -/
theorem arr4_eq (c : Dev nD) : arr4 m c = truncf .bf16 (m ((c : Thread nD τ).loc main_arg4)) bitsLt_bf16_f32 := by
  show StableHlo.after hostOps0 (fun b => m (c, b)) (Proc.devRef .tc main_v1) = _
  after_results

/-- The host narrows main_arg6 before the region; the region finds the narrowed array. -/
theorem arr6_eq (c : Dev nD) : arr6 m c = truncf .bf16 (m ((c : Thread nD τ).loc main_arg6)) bitsLt_bf16_f32 := by
  show StableHlo.after hostOps0 (fun b => m (c, b)) (Proc.devRef .tc main_v2) = _
  after_results

/-- The host narrows main_arg8 before the region; the region finds the narrowed array. -/
theorem arr8_eq (c : Dev nD) : arr8 m c = truncf .bf16 (m ((c : Thread nD τ).loc main_arg8)) bitsLt_bf16_f32 := by
  show StableHlo.after hostOps0 (fun b => m (c, b)) (Proc.devRef .tc main_v3) = _
  after_results

/-- The host narrows main_arg10 before the region; the region finds the narrowed array. -/
theorem arr10_eq (c : Dev nD) : arr10 m c = truncf .bf16 (m ((c : Thread nD τ).loc main_arg10)) bitsLt_bf16_f32 := by
  show StableHlo.after hostOps0 (fun b => m (c, b)) (Proc.devRef .tc main_v4) = _
  after_results

/-- The host narrows main_arg12 before the region; the region finds the narrowed array. -/
theorem arr12_eq (c : Dev nD) : arr12 m c = truncf .bf16 (m ((c : Thread nD τ).loc main_arg12)) bitsLt_bf16_f32 := by
  show StableHlo.after hostOps0 (fun b => m (c, b)) (Proc.devRef .tc main_v5) = _
  after_results

/-- No host line before the region writes the centres, the neighbours or a bias: the region finds them as launched. -/
theorem arr0_eq (c : Dev nD) : arr0 m c = m ((c : Thread nD τ).loc main_arg0) := V_main_arg0 m c
theorem arr1_eq (c : Dev nD) : arr1 m c = m ((c : Thread nD τ).loc main_arg1) := V_main_arg1 m c
theorem arr3_eq (c : Dev nD) : arr3 m c = m ((c : Thread nD τ).loc main_arg3) := V_main_arg3 m c
theorem arr5_eq (c : Dev nD) : arr5 m c = m ((c : Thread nD τ).loc main_arg5) := V_main_arg5 m c
theorem arr7_eq (c : Dev nD) : arr7 m c = m ((c : Thread nD τ).loc main_arg7) := V_main_arg7 m c
theorem arr9_eq (c : Dev nD) : arr9 m c = m ((c : Thread nD τ).loc main_arg9) := V_main_arg9 m c
theorem arr11_eq (c : Dev nD) : arr11 m c = m ((c : Thread nD τ).loc main_arg11) := V_main_arg11 m c
theorem arr13_eq (c : Dev nD) : arr13 m c = m ((c : Thread nD τ).loc main_arg13) := V_main_arg13 m c

/-- A narrowing of the float format does not change a matrix of extended reals. -/
theorem mat_truncf {A B : Nat} (w : FVec Ideal ⟨2, ![A, B]⟩ .f32) (h : FTy.bf16.bits < FTy.f32.bits) :
    mat (truncf .bf16 w h) = mat w := by
  funext k q
  show truncf .bf16 w h (ix2 k q) = w (ix2 k q)
  rw [truncf_apply]

/-- The network the region finds is the network of the launched parameter arrays. -/
theorem net_arr (c : Dev nD) : (netOf (arr2 m c) (arr3 m c) (arr4 m c) (arr5 m c) (arr6 m c) (arr7 m c) (arr8 m c) (arr9 m c) (arr10 m c) (arr11 m c) (arr12 m c) (arr13 m c)) = (netOf (φ := .f32) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  unfold netOf
  rw [arr2_eq, arr4_eq, arr6_eq, arr8_eq, arr10_eq, arr12_eq, mat_truncf, mat_truncf, mat_truncf, mat_truncf, mat_truncf, mat_truncf]
  rw [arr3_eq, arr5_eq, arr7_eq, arr9_eq, arr11_eq, arr13_eq]

/-! ## The two host lines after the region -/

/-- The sum of the column over all its rows is the sum of all pairs' terms. -/
theorem column_sum (P : Net) (xc : FVec Ideal S128x3072 .f32) (xn : FVec Ideal S128x32x3072 .f32) :
    ∑ i : S128x1.Idx, column P xc xn i = ∑ b : Fin 128, ∑ n : Fin 32, term P (row2 xc b) (row3 xn b n) := by
  rw [sum_idx2]
  refine Finset.sum_congr rfl fun b _ => ?_
  rw [Fin.sum_univ_one]
  rfl

/-- The result buffer after the lines that follow the region: the whole loss of the launched arrays. -/
theorem tail_value (c : Dev nD) :
    Pipeline.afterTail₀ cfgs (dats m) 0 (V0 m) [hostOps1] c main_v8
      = fun _ => loss (netOf (φ := .f32) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg0)) (m ((c : Thread nD τ).loc main_arg1)) := by
  unfold Pipeline.afterTail₀
  simp only [List.flatten_cons, List.flatten_nil, List.append_nil]
  after_results
  have hcol : Pipeline.withArrays (cfgs 0).spec c (V0 m c) (fun w => (dats m 0 c).arrAt w (cfgs 0).N) (Proc.devRef .tc main_v6)
      = column (netOf (φ := .f32) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg0)) (m ((c : Thread nD τ).loc main_arg1)) := by
    refine (Pipeline.withArrays_arr spec0 launch0.win.arr_inj c _ _ 14).trans ((final m c).trans ?_)
    rw [net_arr, arr0_eq, arr1_eq]
  rw [hcol]
  funext i
  simp only [Host.divf, Host.reduceAdd, Ideal.hostDivf_def, Ideal.hostReduceAdd_def]
  rw [Ideal.hostReduceAdd_total reducesTo_S128x1_S_d0_1 (fun b => b.elim0) _ _ i, column_sum]
  rfl

/-! ## The run, read -/

/-- The kernel's run re-posted: the result buffer at the whole loss of the launched arrays, every argument unchanged. -/
theorem kernel_run : θ_run defs (onTc (τ := τ) (main (F := Ideal))) ⟨m, fun _ => 0, ρ⟩ (fun r => ∀ c : Dev nD,
      r.2.mem ((c : Thread nD τ).loc main_v8) = (fun _ => loss (netOf (φ := .f32) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun _ h c =>
    ⟨((h c).2 main_v8 (Pipeline.mem_restRefs_of main_v8 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c)))⟩)
    (run_main m ρ)

end Cert.Nrae.KernelSide

end
-- ==== Proof.ReferenceEncoder.lean ====
/-
  The reference's encoder, read row by row.

  The reference applies the encoder to the 128 centres at once and to the 4096 neighbours at once (the neighbours' array
  [128, 32, 3072] laid out as 4096 rows, row b·32 + n being neighbour n of centre b). A dense layer acts on each row by
  itself, so entry (b, j) of the centres' codes is the encoder's code of row b at j, and entry (b·32 + n, j) of the
  neighbours' codes is the code of row (b, n) at j; reshaped back to [128, 32, 32] that is entry (b, n, j).
-/
import proofs.«164909_j16423954940420_1_alg».proof.Proof.Gen.ReferenceIdeal.Read
import proofs.«164909_j16423954940420_1_alg».proof.Proof.Nrae
import proofs.«164909_j16423954940420_1_alg».proof.Proof.LibBlocks
import Idealize.ShloMosaic.Lib.Pipeline.Value
import Idealize.ShloMosaic.Lib.ValueIdx
import Idealize.ShloMosaic.PureOps.Ideal.Laws

noncomputable section

open scoped BigOperators

namespace Cert.Nrae.ReferenceSide

open Idealize.ShloMosaic Idealize.ShloMosaic.ValueIdx Cert.ReferenceIdeal Cert.ReferenceIdeal.Read Cert.Nrae

/-! ## The centres: 128 rows -/

/-- The first layer and its rectifier on the centres, at (b, q). -/
private theorem centre_l1 (x0 : FVec Ideal S128x3072 .f32) (x2 : FVec Ideal S3072x1024 .f32) (x3 : FVec Ideal S1024 .f32) (b : Fin 128) (q : Fin 1024) :
    val_main_v4 (F := Ideal) x0 x2 x3 (ix2 b q) = relu (dense (mat x2) (vec x3) (row2 x0 b)) q := by
  have hl : ∀ k : Fin 3072, lidx_main_v0 (ix2 b q) k = ix2 b k := fun k => funext fun a => Fin.ext (by match a with | ⟨0, _⟩ => rfl | ⟨1, _⟩ => rfl)
  have hr : ∀ k : Fin 3072, ridx_main_v0 (ix2 b q) k = ix2 k q := fun k => funext fun a => Fin.ext (by match a with | ⟨0, _⟩ => rfl | ⟨1, _⟩ => rfl)
  have hb : idx_main_v1 (idx_main_v2 (ix2 b q)) = ix1 q := funext fun a => Fin.ext (by match a with | ⟨0, _⟩ => rfl)
  rw [val_main_v4_apply, val_main_v3_apply, val_main_v0_apply, val_main_v2_apply, val_main_v1_apply,
    val_main_call0_v0_apply, val_main_call0_cst_apply, Ideal.ofBits_def, Ideal.ofBits_zero_f32,
    Ideal.addf_def, Ideal.maximumf_def, hb]
  simp only [hl, hr]
  rfl

/-- The second layer and its rectifier on the centres, at (b, q). -/
private theorem centre_l2 (x0 : FVec Ideal S128x3072 .f32) (x2 : FVec Ideal S3072x1024 .f32) (x3 : FVec Ideal S1024 .f32) (x4 : FVec Ideal S1024x1024 .f32) (x5 : FVec Ideal S1024 .f32) (b : Fin 128) (q : Fin 1024) :
    val_main_v9 (F := Ideal) x0 x2 x3 x4 x5 (ix2 b q)
      = relu (dense (mat x4) (vec x5) (relu (dense (mat x2) (vec x3) (row2 x0 b)))) q := by
  have hl : ∀ k : Fin 1024, lidx_main_v5 (ix2 b q) k = ix2 b k := fun k => funext fun a => Fin.ext (by match a with | ⟨0, _⟩ => rfl | ⟨1, _⟩ => rfl)
  have hr : ∀ k : Fin 1024, ridx_main_v5 (ix2 b q) k = ix2 k q := fun k => funext fun a => Fin.ext (by match a with | ⟨0, _⟩ => rfl | ⟨1, _⟩ => rfl)
  have hb : idx_main_v6 (idx_main_v7 (ix2 b q)) = ix1 q := funext fun a => Fin.ext (by match a with | ⟨0, _⟩ => rfl)
  rw [val_main_v9_apply, val_main_v8_apply, val_main_v5_apply, val_main_v7_apply, val_main_v6_apply,
    val_main_call1_v0_apply, val_main_call1_cst_apply, Ideal.ofBits_def, Ideal.ofBits_zero_f32,
    Ideal.addf_def, Ideal.maximumf_def, hb]
  simp only [hl, hr, centre_l1]
  rfl

/-- The centres' codes at (b, j): the code of row b. -/
theorem centre_code (x0 : FVec Ideal S128x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (b : Fin 128) (j : Fin 32) :
    val_main_v13 (F := Ideal) x0 x2 x3 x4 x5 x6 x7 (ix2 b j) = dense (mat x6) (vec x7) (relu (dense (mat x4) (vec x5) (relu (dense (mat x2) (vec x3) (row2 x0 b))))) j := by
  have hl : ∀ k : Fin 1024, lidx_main_v10 (ix2 b j) k = ix2 b k := fun k => funext fun a => Fin.ext (by match a with | ⟨0, _⟩ => rfl | ⟨1, _⟩ => rfl)
  have hr : ∀ k : Fin 1024, ridx_main_v10 (ix2 b j) k = ix2 k j := fun k => funext fun a => Fin.ext (by match a with | ⟨0, _⟩ => rfl | ⟨1, _⟩ => rfl)
  have hb : idx_main_v11 (idx_main_v12 (ix2 b j)) = ix1 j := funext fun a => Fin.ext (by match a with | ⟨0, _⟩ => rfl)
  rw [val_main_v13_apply, val_main_v10_apply, val_main_v12_apply, val_main_v11_apply, Ideal.addf_def, hb]
  simp only [hl, hr, centre_l2]
  rfl

/-! ## The neighbours: 4096 rows -/

/-- Row b·32 + n of the neighbours laid out as 4096 rows is row (b, n) of the array [128, 32, 3072]. -/
private theorem flat_row (b : Fin 128) (n : Fin 32) (d : Fin 3072) :
    idx_main_v14 (ix2 (flat128 b n) d) = ix3 b n d := by
  have hb := b.isLt
  have hn := n.isLt
  have hd := d.isLt
  funext a
  apply Fin.ext
  match a with
  | ⟨0, _⟩ => show ((b.val * 32 + n.val) * 3072 + d.val) / 98304 = b.val; omega
  | ⟨1, _⟩ => show ((b.val * 32 + n.val) * 3072 + d.val) / 3072 % 32 = n.val; omega
  | ⟨2, _⟩ => show ((b.val * 32 + n.val) * 3072 + d.val) % 3072 = d.val; omega

/-- The first layer and its rectifier on the neighbours, at (b·32 + n, q). -/
private theorem neighbour_l1 (x1 : FVec Ideal S128x32x3072 .f32) (x2 : FVec Ideal S3072x1024 .f32) (x3 : FVec Ideal S1024 .f32) (b : Fin 128) (n : Fin 32) (q : Fin 1024) :
    val_main_v19 (F := Ideal) x1 x2 x3 (ix2 (flat128 b n) q) = relu (dense (mat x2) (vec x3) (row3 x1 b n)) q := by
  have hl : ∀ k : Fin 3072, lidx_main_v15 (ix2 (flat128 b n) q) k = ix2 (flat128 b n) k := fun k => funext fun a => Fin.ext (by match a with | ⟨0, _⟩ => rfl | ⟨1, _⟩ => rfl)
  have hr : ∀ k : Fin 3072, ridx_main_v15 (ix2 (flat128 b n) q) k = ix2 k q := fun k => funext fun a => Fin.ext (by match a with | ⟨0, _⟩ => rfl | ⟨1, _⟩ => rfl)
  have hb : idx_main_v16 (idx_main_v17 (ix2 (flat128 b n) q)) = ix1 q := funext fun a => Fin.ext (by match a with | ⟨0, _⟩ => rfl)
  rw [val_main_v19_apply, val_main_v18_apply, val_main_v15_apply, val_main_v17_apply, val_main_v16_apply,
    val_main_call2_v0_apply, val_main_call2_cst_apply, Ideal.ofBits_def, Ideal.ofBits_zero_f32,
    Ideal.addf_def, Ideal.maximumf_def, hb]
  simp only [hl, hr, val_main_v14_apply, flat_row]
  rfl

/-- The second layer and its rectifier on the neighbours, at (b·32 + n, q). -/
private theorem neighbour_l2 (x1 : FVec Ideal S128x32x3072 .f32) (x2 : FVec Ideal S3072x1024 .f32) (x3 : FVec Ideal S1024 .f32) (x4 : FVec Ideal S1024x1024 .f32) (x5 : FVec Ideal S1024 .f32) (b : Fin 128) (n : Fin 32) (q : Fin 1024) :
    val_main_v24 (F := Ideal) x1 x2 x3 x4 x5 (ix2 (flat128 b n) q)
      = relu (dense (mat x4) (vec x5) (relu (dense (mat x2) (vec x3) (row3 x1 b n)))) q := by
  have hl : ∀ k : Fin 1024, lidx_main_v20 (ix2 (flat128 b n) q) k = ix2 (flat128 b n) k := fun k => funext fun a => Fin.ext (by match a with | ⟨0, _⟩ => rfl | ⟨1, _⟩ => rfl)
  have hr : ∀ k : Fin 1024, ridx_main_v20 (ix2 (flat128 b n) q) k = ix2 k q := fun k => funext fun a => Fin.ext (by match a with | ⟨0, _⟩ => rfl | ⟨1, _⟩ => rfl)
  have hb : idx_main_v21 (idx_main_v22 (ix2 (flat128 b n) q)) = ix1 q := funext fun a => Fin.ext (by match a with | ⟨0, _⟩ => rfl)
  rw [val_main_v24_apply, val_main_v23_apply, val_main_v20_apply, val_main_v22_apply, val_main_v21_apply,
    val_main_call3_v0_apply, val_main_call3_cst_apply, Ideal.ofBits_def, Ideal.ofBits_zero_f32,
    Ideal.addf_def, Ideal.maximumf_def, hb]
  simp only [hl, hr, neighbour_l1]
  rfl

/-- The neighbours' codes, 4096 rows, at (b·32 + n, j): the code of row (b, n). -/
theorem neighbour_code_flat (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (b : Fin 128) (n : Fin 32) (j : Fin 32) :
    val_main_v28 (F := Ideal) x1 x2 x3 x4 x5 x6 x7 (ix2 (flat128 b n) j) = dense (mat x6) (vec x7) (relu (dense (mat x4) (vec x5) (relu (dense (mat x2) (vec x3) (row3 x1 b n))))) j := by
  have hl : ∀ k : Fin 1024, lidx_main_v25 (ix2 (flat128 b n) j) k = ix2 (flat128 b n) k := fun k => funext fun a => Fin.ext (by match a with | ⟨0, _⟩ => rfl | ⟨1, _⟩ => rfl)
  have hr : ∀ k : Fin 1024, ridx_main_v25 (ix2 (flat128 b n) j) k = ix2 k j := fun k => funext fun a => Fin.ext (by match a with | ⟨0, _⟩ => rfl | ⟨1, _⟩ => rfl)
  have hb : idx_main_v26 (idx_main_v27 (ix2 (flat128 b n) j)) = ix1 j := funext fun a => Fin.ext (by match a with | ⟨0, _⟩ => rfl)
  rw [val_main_v28_apply, val_main_v25_apply, val_main_v27_apply, val_main_v26_apply, Ideal.addf_def, hb]
  simp only [hl, hr, neighbour_l2]
  rfl

/-- Entry (b, n, j) of the array [128, 32, 32] is entry (b·32 + n, j) of the same laid out as 4096 rows. -/
private theorem unflat_row (b : Fin 128) (n : Fin 32) (j : Fin 32) :
    idx_main_v29 (ix3 b n j) = ix2 (flat128 b n) j := by
  have hb := b.isLt
  have hn := n.isLt
  have hj := j.isLt
  funext a
  apply Fin.ext
  match a with
  | ⟨0, _⟩ => show ((b.val * 32 + n.val) * 32 + j.val) / 32 = b.val * 32 + n.val; omega
  | ⟨1, _⟩ => show ((b.val * 32 + n.val) * 32 + j.val) % 32 = j.val; omega

/-- The same reshaped to [128, 32, 32], at (b, n, j). -/
theorem neighbour_code (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (b : Fin 128) (n : Fin 32) (j : Fin 32) :
    val_main_v29 (F := Ideal) x1 x2 x3 x4 x5 x6 x7 (ix3 b n j) = dense (mat x6) (vec x7) (relu (dense (mat x4) (vec x5) (relu (dense (mat x2) (vec x3) (row3 x1 b n))))) j := by
  rw [val_main_v29_apply, unflat_row, neighbour_code_flat]

end Cert.Nrae.ReferenceSide

end
-- ==== Proof.ReferenceDecoder.lean ====
/-
  The reference's decoder at the centres' codes, read row by row.

  The reference decodes the 128 centres' codes once (the reconstruction), and once more on 4096 rows, row b·32 + n being
  a copy of centre b's code: that second pass supplies the two pre-activations whose signs gate the derivative. Since
  every row b·32 + n is the code of centre b, its pre-activations are those of centre b.
-/
import proofs.«164909_j16423954940420_1_alg».proof.Proof.ReferenceEncoder

noncomputable section

open scoped BigOperators

namespace Cert.Nrae.ReferenceSide

open Idealize.ShloMosaic Idealize.ShloMosaic.ValueIdx Cert.ReferenceIdeal Cert.ReferenceIdeal.Read Cert.Nrae

/-! ## The stages of the reference's decoder, read at a row

Each dense stage is a contraction with a weight matrix plus a bias row copied to every row; each rectifier is the
maximum with a zero array. At row r and column q the contraction reads the operand's row r and the matrix's column q. -/

section Stages

variable (x0 : FVec Ideal S128x3072 .f32) (x2 : FVec Ideal S3072x1024 .f32) (x3 : FVec Ideal S1024 .f32)
  (x4 : FVec Ideal S1024x1024 .f32) (x5 : FVec Ideal S1024 .f32) (x6 : FVec Ideal S1024x32 .f32) (x7 : FVec Ideal S32 .f32)
  (x8 : FVec Ideal S32x1024 .f32) (x9 : FVec Ideal S1024 .f32) (x10 : FVec Ideal S1024x1024 .f32) (x11 : FVec Ideal S1024 .f32)
  (x12 : FVec Ideal S1024x3072 .f32) (x13 : FVec Ideal S3072 .f32)

/-- The centres' first pre-activation at (b, q): the first dense layer on the code of centre b. -/
private theorem v33_row (b : Fin 128) (q : Fin 1024) :
    val_main_v33 (F := Ideal) x0 x2 x3 x4 x5 x6 x7 x8 x9 (ix2 b q)
      = dense (mat x8) (vec x9) (fun j => val_main_v13 (F := Ideal) x0 x2 x3 x4 x5 x6 x7 (ix2 b j)) q := by
  have el : ∀ k : Fin 32, lidx_main_v30 (ix2 b q) k = ix2 b k := fun k =>
    funext fun a => by match a with | ⟨0, _⟩ => rfl | ⟨1, _⟩ => rfl
  have er : ∀ k : Fin 32, ridx_main_v30 (ix2 b q) k = ix2 k q := fun k =>
    funext fun a => by match a with | ⟨0, _⟩ => rfl | ⟨1, _⟩ => rfl
  have eb : idx_main_v31 (idx_main_v32 (ix2 b q)) = ix1 q :=
    funext fun a => by match a with | ⟨0, _⟩ => rfl
  rw [val_main_v33_apply, val_main_v30_apply, val_main_v32_apply, val_main_v31_apply, eb]
  simp only [el, er, Ideal.addf_def]
  rfl

/-- The first rectifier at (b, q). -/
private theorem v34_row (b : Fin 128) (q : Fin 1024) :
    val_main_v34 (F := Ideal) x0 x2 x3 x4 x5 x6 x7 x8 x9 (ix2 b q)
      = relu (fun j => val_main_v33 (F := Ideal) x0 x2 x3 x4 x5 x6 x7 x8 x9 (ix2 b j)) q := by
  rw [val_main_v34_apply, val_main_call4_v0_apply, val_main_call4_cst_apply]
  simp only [Ideal.maximumf_def, Ideal.ofBits_def, Ideal.ofBits_zero_f32]
  rfl

/-- The centres' second pre-activation at (b, q). -/
private theorem v38_row (b : Fin 128) (q : Fin 1024) :
    val_main_v38 (F := Ideal) x0 x2 x3 x4 x5 x6 x7 x8 x9 x10 x11 (ix2 b q)
      = dense (mat x10) (vec x11) (fun j => val_main_v34 (F := Ideal) x0 x2 x3 x4 x5 x6 x7 x8 x9 (ix2 b j)) q := by
  have el : ∀ k : Fin 1024, lidx_main_v35 (ix2 b q) k = ix2 b k := fun k =>
    funext fun a => by match a with | ⟨0, _⟩ => rfl | ⟨1, _⟩ => rfl
  have er : ∀ k : Fin 1024, ridx_main_v35 (ix2 b q) k = ix2 k q := fun k =>
    funext fun a => by match a with | ⟨0, _⟩ => rfl | ⟨1, _⟩ => rfl
  have eb : idx_main_v36 (idx_main_v37 (ix2 b q)) = ix1 q :=
    funext fun a => by match a with | ⟨0, _⟩ => rfl
  rw [val_main_v38_apply, val_main_v35_apply, val_main_v37_apply, val_main_v36_apply, eb]
  simp only [el, er, Ideal.addf_def]
  rfl

/-- The second rectifier at (b, q). -/
private theorem v39_row (b : Fin 128) (q : Fin 1024) :
    val_main_v39 (F := Ideal) x0 x2 x3 x4 x5 x6 x7 x8 x9 x10 x11 (ix2 b q)
      = relu (fun j => val_main_v38 (F := Ideal) x0 x2 x3 x4 x5 x6 x7 x8 x9 x10 x11 (ix2 b j)) q := by
  rw [val_main_v39_apply, val_main_call5_v0_apply, val_main_call5_cst_apply]
  simp only [Ideal.maximumf_def, Ideal.ofBits_def, Ideal.ofBits_zero_f32]
  rfl

/-- The output layer at (b, d). -/
private theorem v43_row (b : Fin 128) (d : Fin 3072) :
    val_main_v43 (F := Ideal) x0 x2 x3 x4 x5 x6 x7 x8 x9 x10 x11 x12 x13 (ix2 b d)
      = dense (mat x12) (vec x13) (fun j => val_main_v39 (F := Ideal) x0 x2 x3 x4 x5 x6 x7 x8 x9 x10 x11 (ix2 b j)) d := by
  have el : ∀ k : Fin 1024, lidx_main_v40 (ix2 b d) k = ix2 b k := fun k =>
    funext fun a => by match a with | ⟨0, _⟩ => rfl | ⟨1, _⟩ => rfl
  have er : ∀ k : Fin 1024, ridx_main_v40 (ix2 b d) k = ix2 k d := fun k =>
    funext fun a => by match a with | ⟨0, _⟩ => rfl | ⟨1, _⟩ => rfl
  have eb : idx_main_v41 (idx_main_v42 (ix2 b d)) = ix1 d :=
    funext fun a => by match a with | ⟨0, _⟩ => rfl
  rw [val_main_v43_apply, val_main_v40_apply, val_main_v42_apply, val_main_v41_apply, eb]
  simp only [el, er, Ideal.addf_def]
  rfl

/-- The 4096 rows' input at (b·32 + n, k): the code of centre b at k. The reshape reads position
    ((b·32 + n)·32 + k) of the [128, 32, 32] array, that is (b, n, k), and the two copies drop n. -/
private theorem v50_row (b : Fin 128) (n : Fin 32) (k : Fin 32) :
    val_main_v50 (F := Ideal) x0 x2 x3 x4 x5 x6 x7 (ix2 (flat128 b n) k)
      = val_main_v13 (F := Ideal) x0 x2 x3 x4 x5 x6 x7 (ix2 b k) := by
  have e : idx_main_v48 (idx_main_v49 (idx_main_v50 (ix2 (flat128 b n) k))) = ix2 b k := by
    funext a
    match a with
    | ⟨0, _⟩ =>
      exact Fin.ext (by
        show ((b.val * 32 + n.val) * 32 + k.val) / 1024 = b.val
        have := b.isLt; have := n.isLt; have := k.isLt; omega)
    | ⟨1, _⟩ =>
      exact Fin.ext (by
        show ((b.val * 32 + n.val) * 32 + k.val) % 32 = k.val
        have := k.isLt; omega)
  rw [val_main_v50_apply, val_main_v49_apply, val_main_v48_apply, e]

/-- The first pre-activation on the 4096 rows at (r, q). -/
private theorem v56_row (r : Fin 4096) (q : Fin 1024) :
    val_main_v56 (F := Ideal) x0 x2 x3 x4 x5 x6 x7 x8 x9 (ix2 r q)
      = dense (mat x8) (vec x9) (fun j => val_main_v50 (F := Ideal) x0 x2 x3 x4 x5 x6 x7 (ix2 r j)) q := by
  have el : ∀ k : Fin 32, lidx_main_v51 (ix2 r q) k = ix2 r k := fun k =>
    funext fun a => by match a with | ⟨0, _⟩ => rfl | ⟨1, _⟩ => rfl
  have er : ∀ k : Fin 32, ridx_main_v51 (ix2 r q) k = ix2 k q := fun k =>
    funext fun a => by match a with | ⟨0, _⟩ => rfl | ⟨1, _⟩ => rfl
  have eb : idx_main_v54 (idx_main_v55 (ix2 r q)) = ix1 q :=
    funext fun a => by match a with | ⟨0, _⟩ => rfl
  rw [val_main_v56_apply, val_main_v51_apply, val_main_v55_apply, val_main_v54_apply, eb]
  simp only [el, er, Ideal.addf_def]
  rfl

/-- The rectifier on the 4096 rows at (r, q). -/
private theorem v57_row (r : Fin 4096) (q : Fin 1024) :
    val_main_v57 (F := Ideal) x0 x2 x3 x4 x5 x6 x7 x8 x9 (ix2 r q)
      = relu (fun j => val_main_v56 (F := Ideal) x0 x2 x3 x4 x5 x6 x7 x8 x9 (ix2 r j)) q := by
  rw [val_main_v57_apply, val_main_call6_v0_apply, val_main_call6_cst_apply]
  simp only [Ideal.maximumf_def, Ideal.ofBits_def, Ideal.ofBits_zero_f32]
  rfl

/-- The second pre-activation on the 4096 rows at (r, q). -/
private theorem v71_row (r : Fin 4096) (q : Fin 1024) :
    val_main_v71 (F := Ideal) x0 x2 x3 x4 x5 x6 x7 x8 x9 x10 x11 (ix2 r q)
      = dense (mat x10) (vec x11) (fun j => val_main_v57 (F := Ideal) x0 x2 x3 x4 x5 x6 x7 x8 x9 (ix2 r j)) q := by
  have el : ∀ k : Fin 1024, lidx_main_v66 (ix2 r q) k = ix2 r k := fun k =>
    funext fun a => by match a with | ⟨0, _⟩ => rfl | ⟨1, _⟩ => rfl
  have er : ∀ k : Fin 1024, ridx_main_v66 (ix2 r q) k = ix2 k q := fun k =>
    funext fun a => by match a with | ⟨0, _⟩ => rfl | ⟨1, _⟩ => rfl
  have eb : idx_main_v69 (idx_main_v70 (ix2 r q)) = ix1 q :=
    funext fun a => by match a with | ⟨0, _⟩ => rfl
  rw [val_main_v71_apply, val_main_v66_apply, val_main_v70_apply, val_main_v69_apply, eb]
  simp only [el, er, Ideal.addf_def]
  rfl

end Stages

/-- The reconstruction at (b, d): the decoder's output at the code of centre b. -/
theorem centre_recon (x0 : FVec Ideal S128x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (b : Fin 128) (d : Fin 3072) :
    val_main_v43 (F := Ideal) x0 x2 x3 x4 x5 x6 x7 x8 x9 x10 x11 x12 x13 (ix2 b d) = recon (netOf x2 x3 x4 x5 x6 x7 x8 x9 x10 x11 x12 x13) (enc (netOf x2 x3 x4 x5 x6 x7 x8 x9 x10 x11 x12 x13) (row2 x0 b)) d := by
  rw [v43_row]
  simp only [v39_row, v38_row, v34_row, v33_row, centre_code]
  rfl

/-- The first pre-activation on the 4096 rows at (b·32 + n, q): that of centre b. -/
theorem rows_pre1 (x0 : FVec Ideal S128x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (b : Fin 128) (n : Fin 32) (q : Fin 1024) :
    val_main_v56 (F := Ideal) x0 x2 x3 x4 x5 x6 x7 x8 x9 (ix2 (flat128 b n) q)
      = dense (mat x8) (vec x9) (dense (mat x6) (vec x7) (relu (dense (mat x4) (vec x5) (relu (dense (mat x2) (vec x3) (row2 x0 b)))))) q := by
  rw [v56_row]
  simp only [v50_row, centre_code]

/-- The second pre-activation on the 4096 rows at (b·32 + n, q): that of centre b. -/
theorem rows_pre2 (x0 : FVec Ideal S128x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (b : Fin 128) (n : Fin 32) (q : Fin 1024) :
    val_main_v71 (F := Ideal) x0 x2 x3 x4 x5 x6 x7 x8 x9 x10 x11 (ix2 (flat128 b n) q)
      = dense (mat x10) (vec x11) (relu (dense (mat x8) (vec x9) (dense (mat x6) (vec x7) (relu (dense (mat x4) (vec x5) (relu (dense (mat x2) (vec x3) (row2 x0 b)))))))) q := by
  rw [v71_row]
  simp only [v57_row, v56_row, v50_row, centre_code]

end Cert.Nrae.ReferenceSide

end
-- ==== Proof.ReferenceJacobian.lean ====
/-
  The reference's derivative of the decoder, read row by row.

  The direction of row b·32 + n is the neighbour's code minus the centre's. It is sent through the first weight matrix,
  kept where the first pre-activation of that row is positive and set to zero elsewhere, sent through the second matrix,
  gated by the second pre-activation in the same way, and sent through the third. A term that is zero times one half is
  then added, which changes nothing. Laid out as [128, 32, 3072], entry (b, n, d) is the decoder's derivative at the code of
  centre b in the direction of pair (b, n), at d.
-/
import proofs.«164909_j16423954940420_1_alg».proof.Proof.ReferenceDecoder

noncomputable section

open scoped BigOperators

namespace Cert.Nrae.ReferenceSide

open Idealize.ShloMosaic Idealize.ShloMosaic.ValueIdx Cert.ReferenceIdeal Cert.ReferenceIdeal.Read Cert.Nrae

/-- The direction of row b·32 + n at k: the neighbour's code minus the centre's. -/
theorem direction (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (b : Fin 128) (n : Fin 32) (k : Fin 32) :
    val_main_v47 (F := Ideal) x0 x1 x2 x3 x4 x5 x6 x7 (ix2 (flat128 b n) k)
      = dense (mat x6) (vec x7) (relu (dense (mat x4) (vec x5) (relu (dense (mat x2) (vec x3) (row3 x1 b n))))) k - dense (mat x6) (vec x7) (relu (dense (mat x4) (vec x5) (relu (dense (mat x2) (vec x3) (row2 x0 b))))) k := by
  -- the reshape reads the difference at (b, n, k); the broadcasts read the centres' codes at (b, k)
  have h47 : idx_main_v47 (ix2 (flat128 b n) k) = ix3 b n k := by
    funext a
    match a with
    | ⟨0, _⟩ =>
      apply Fin.ext
      have hn := n.isLt
      have hk := k.isLt
      show ((b.val * 32 + n.val) * 32 + k.val) / 1024 = b.val
      omega
    | ⟨1, _⟩ =>
      apply Fin.ext
      have hn := n.isLt
      have hk := k.isLt
      show ((b.val * 32 + n.val) * 32 + k.val) / 32 % 32 = n.val
      omega
    | ⟨2, _⟩ =>
      apply Fin.ext
      have hn := n.isLt
      have hk := k.isLt
      show ((b.val * 32 + n.val) * 32 + k.val) % 32 = k.val
      omega
  have h45 : idx_main_v44 (idx_main_v45 (ix3 b n k)) = ix2 b k := by
    funext a
    match a with
    | ⟨0, _⟩ => rfl
    | ⟨1, _⟩ => rfl
  rw [val_main_v47_apply, h47, val_main_v46_apply, val_main_v45_apply, val_main_v44_apply, h45,
    neighbour_code, centre_code, Ideal.subf_def]

/-- The direction through the first matrix, at (b·32 + n, p): the sum over k of direction_k · Wd1(k, p). -/
private theorem through_first (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (b : Fin 128) (n : Fin 32) (p : Fin 1024) :
    val_main_v53 (F := Ideal) x0 x1 x2 x3 x4 x5 x6 x7 x8 (ix2 (flat128 b n) p)
      = ∑ k : Fin 32, (dense (mat x6) (vec x7) (relu (dense (mat x4) (vec x5) (relu (dense (mat x2) (vec x3) (row3 x1 b n))))) k - dense (mat x6) (vec x7) (relu (dense (mat x4) (vec x5) (relu (dense (mat x2) (vec x3) (row2 x0 b))))) k) * x8 (ix2 k p) := by
  rw [val_main_v53_apply]
  refine Finset.sum_congr rfl fun k _ => ?_
  have hl : lidx_main_v53 (ix2 (flat128 b n) p) k = ix2 (flat128 b n) k := by
    funext a
    match a with
    | ⟨0, _⟩ => rfl
    | ⟨1, _⟩ => rfl
  have hr : ridx_main_v53 (ix2 (flat128 b n) p) k = ix2 k p := by
    funext a
    match a with
    | ⟨0, _⟩ => rfl
    | ⟨1, _⟩ => rfl
  rw [hl, hr, direction]

/-- The first gate at (b·32 + n, p): the entry is kept where centre b's first pre-activation is positive. -/
private theorem first_gate (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (b : Fin 128) (n : Fin 32) (p : Fin 1024) :
    val_main_v65 (F := Ideal) x0 x1 x2 x3 x4 x5 x6 x7 x8 x9 (ix2 (flat128 b n) p)
      = if 0 < dense (mat x8) (vec x9) (dense (mat x6) (vec x7) (relu (dense (mat x4) (vec x5) (relu (dense (mat x2) (vec x3) (row2 x0 b)))))) p
          then val_main_v53 (F := Ideal) x0 x1 x2 x3 x4 x5 x6 x7 x8 (ix2 (flat128 b n) p) else 0 := by
  rw [val_main_v65_apply, val_main_v63_apply, val_main_v62_apply, val_main_cst_1_apply, val_main_v64_apply,
    val_main_cst_2_apply, Ideal.ofBits_def, Ideal.ofBits_zero_f32, Ideal.cmpf_def, rows_pre1, choose_eq_gate]

/-- The gated row through the second matrix, at (b·32 + n, q). -/
private theorem through_second (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (b : Fin 128) (n : Fin 32) (q : Fin 1024) :
    val_main_v68 (F := Ideal) x0 x1 x2 x3 x4 x5 x6 x7 x8 x9 x10 (ix2 (flat128 b n) q)
      = ∑ p : Fin 1024, val_main_v65 (F := Ideal) x0 x1 x2 x3 x4 x5 x6 x7 x8 x9 (ix2 (flat128 b n) p) * x10 (ix2 p q) := by
  rw [val_main_v68_apply]
  refine Finset.sum_congr rfl fun p _ => ?_
  have hl : lidx_main_v68 (ix2 (flat128 b n) q) p = ix2 (flat128 b n) p := by
    funext a
    match a with
    | ⟨0, _⟩ => rfl
    | ⟨1, _⟩ => rfl
  have hr : ridx_main_v68 (ix2 (flat128 b n) q) p = ix2 p q := by
    funext a
    match a with
    | ⟨0, _⟩ => rfl
    | ⟨1, _⟩ => rfl
  rw [hl, hr]

/-- The second gate at (b·32 + n, q): the entry is kept where centre b's second pre-activation is positive. -/
private theorem second_gate (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (b : Fin 128) (n : Fin 32) (q : Fin 1024) :
    val_main_v80 (F := Ideal) x0 x1 x2 x3 x4 x5 x6 x7 x8 x9 x10 x11 (ix2 (flat128 b n) q)
      = if 0 < dense (mat x10) (vec x11) (relu (dense (mat x8) (vec x9) (dense (mat x6) (vec x7) (relu (dense (mat x4) (vec x5) (relu (dense (mat x2) (vec x3) (row2 x0 b)))))))) q
          then val_main_v68 (F := Ideal) x0 x1 x2 x3 x4 x5 x6 x7 x8 x9 x10 (ix2 (flat128 b n) q) else 0 := by
  rw [val_main_v80_apply, val_main_v78_apply, val_main_v77_apply, val_main_cst_5_apply, val_main_v79_apply,
    val_main_cst_6_apply, Ideal.ofBits_def, Ideal.ofBits_zero_f32, Ideal.cmpf_def, rows_pre2, choose_eq_gate]

/-- The twice-gated row through the third matrix, at (b·32 + n, d). -/
private theorem through_third (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (b : Fin 128) (n : Fin 32) (d : Fin 3072) :
    val_main_v83 (F := Ideal) x0 x1 x2 x3 x4 x5 x6 x7 x8 x9 x10 x11 x12 (ix2 (flat128 b n) d)
      = ∑ q : Fin 1024, val_main_v80 (F := Ideal) x0 x1 x2 x3 x4 x5 x6 x7 x8 x9 x10 x11 (ix2 (flat128 b n) q) * x12 (ix2 q d) := by
  rw [val_main_v83_apply]
  refine Finset.sum_congr rfl fun q _ => ?_
  have hl : lidx_main_v83 (ix2 (flat128 b n) d) q = ix2 (flat128 b n) q := by
    funext a
    match a with
    | ⟨0, _⟩ => rfl
    | ⟨1, _⟩ => rfl
  have hr : ridx_main_v83 (ix2 (flat128 b n) d) q = ix2 q d := by
    funext a
    match a with
    | ⟨0, _⟩ => rfl
    | ⟨1, _⟩ => rfl
  rw [hl, hr]

/-- The added term, one half times zero, is zero at every index. -/
private theorem half_of_zero (i : S4096x3072.Idx) : val_main_v90 (F := Ideal) i = 0 := by
  rw [val_main_v90_apply, val_main_v87_apply, val_main_cst_7_apply, Ideal.ofBits_def, Ideal.ofBits_zero_f32,
    Ideal.mulf_def, mul_zero]

/-- The derivative's rows as [128, 32, 3072], at (b, n, d). -/
theorem jacobian_rows (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (b : Fin 128) (n : Fin 32) (d : Fin 3072) :
    val_main_v92 (F := Ideal) x0 x1 x2 x3 x4 x5 x6 x7 x8 x9 x10 x11 x12 (ix3 b n d) = jac (netOf x2 x3 x4 x5 x6 x7 x8 x9 x10 x11 x12 x13) (enc (netOf x2 x3 x4 x5 x6 x7 x8 x9 x10 x11 x12 x13) (row2 x0 b)) (fun k => enc (netOf x2 x3 x4 x5 x6 x7 x8 x9 x10 x11 x12 x13) (row3 x1 b n) k - enc (netOf x2 x3 x4 x5 x6 x7 x8 x9 x10 x11 x12 x13) (row2 x0 b) k) d := by
  -- the reshape reads row b·32 + n at d
  have h92 : idx_main_v92 (ix3 b n d) = ix2 (flat128 b n) d := by
    funext a
    match a with
    | ⟨0, _⟩ =>
      apply Fin.ext
      have hd := d.isLt
      show ((b.val * 32 + n.val) * 3072 + d.val) / 3072 = b.val * 32 + n.val
      omega
    | ⟨1, _⟩ =>
      apply Fin.ext
      have hd := d.isLt
      show ((b.val * 32 + n.val) * 3072 + d.val) % 3072 = d.val
      omega
  rw [val_main_v92_apply, h92, val_main_v91_apply, half_of_zero, Ideal.addf_def, add_zero, through_third]
  simp only [second_gate, through_second, first_gate, through_first]
  rfl

end Cert.Nrae.ReferenceSide

end
-- ==== Proof.ReferenceLoss.lean ====
/-
  The reference's loss.

  Entry (b, n) of the weighted errors is the pair's term: the weight of centre b and neighbour (b, n) times the squared error
  of the neighbour's first-order reconstruction. The result is the sum of all 128·32 terms from zero, divided by 4096.
-/
import proofs.«164909_j16423954940420_1_alg».proof.Proof.ReferenceJacobian
import Idealize.ShloMosaic.Lib.ReduceAll

noncomputable section

open scoped BigOperators

namespace Cert.Nrae.ReferenceSide

open Idealize.ShloMosaic Idealize.ShloMosaic.ValueIdx Cert.ReferenceIdeal Cert.ReferenceIdeal.Read Cert.Nrae

/-- The centre's row repeated over its neighbours, at (b, n, d): entry d of centre b. -/
private theorem centre_at (x0 : FVec Ideal S128x3072 .f32) (b : Fin 128) (n : Fin 32) (d : Fin 3072) :
    val_main_v99 (F := Ideal) x0 (ix3 b n d) = x0 (ix2 b d) := by
  rw [val_main_v99_apply, val_main_v98_apply]
  exact congrArg x0 (funext fun a => Fin.ext (by match a with | ⟨0, _⟩ => rfl | ⟨1, _⟩ => rfl))

/-- The Euclidean distance of centre b and neighbour (b, n): the square root of the sum of squared differences. -/
private theorem dist_at (x0 : FVec Ideal S128x3072 .f32) (x1 : FVec Ideal S128x32x3072 .f32) (b : Fin 128) (n : Fin 32) :
    val_main_v101 (F := Ideal) x0 x1 (ix2 b n) = dist (row2 x0 b) (row3 x1 b n) := by
  rw [val_main_v101_apply, Ideal.hostUnary_sqrt_def, val_main_call8_v1_apply, val_main_call8_cst_apply, Ideal.ofBits_def,
    Ideal.ofBits_zero_f32, zero_add]
  unfold dist
  refine congrArg Ideal.sqrt (Finset.sum_congr rfl fun d _ => ?_)
  have hi : idx_main_call8_v1 (ix2 b n) d = ix3 b n d :=
    funext fun a => Fin.ext (by match a with | ⟨0, _⟩ => rfl | ⟨1, _⟩ => rfl | ⟨2, _⟩ => rfl)
  rw [hi, val_main_call8_v0_apply, val_main_v100_apply, Ideal.mulf_def, Ideal.subf_def, centre_at]
  rfl

/-- The weight of pair (b, n): the choice between the two constants on "distance beyond the threshold". -/
private theorem weight_at (x0 : FVec Ideal S128x3072 .f32) (x1 : FVec Ideal S128x32x3072 .f32) (b : Fin 128) (n : Fin 32) :
    val_main_v104 (F := Ideal) x0 x1 (ix2 b n) = weight (row2 x0 b) (row3 x1 b n) := by
  rw [val_main_v104_apply, val_main_v103_apply, val_main_call9_v0_apply, val_main_call9_v1_apply, val_main_v102_apply,
    val_main_cst_10_apply, val_main_cst_11_apply, val_main_cst_12_apply, dist_at, Ideal.cmpf_def]
  simp only [Ideal.ofBits_def]
  unfold weight Scalar.select Ideal.cmp
  by_cases h : Ideal.ofBits .f32 0x2B8CBCCC#32 < dist (row2 x0 b) (row3 x1 b n)
  · simp [h]
  · simp [h]

/-- The neighbour's first-order reconstruction at (b, n, d): the centre's reconstruction plus the derivative's row. -/
private theorem nrecon_at (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (b : Fin 128) (n : Fin 32) (d : Fin 3072) :
    val_main_v94 (F := Ideal) x0 x1 x2 x3 x4 x5 x6 x7 x8 x9 x10 x11 x12 x13 (ix3 b n d) = nrecon (netOf x2 x3 x4 x5 x6 x7 x8 x9 x10 x11 x12 x13) (row2 x0 b) (row3 x1 b n) d := by
  have hi : idx_main_v88 (idx_main_v93 (ix3 b n d)) = ix2 b d :=
    funext fun a => Fin.ext (by match a with | ⟨0, _⟩ => rfl | ⟨1, _⟩ => rfl)
  rw [val_main_v94_apply, val_main_v93_apply, val_main_v88_apply, Ideal.addf_def, hi, centre_recon, jacobian_rows]
  rfl

/-- The squared error of pair (b, n): the sum over d of the squared difference of the neighbour and its reconstruction. -/
private theorem nloss_at (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (b : Fin 128) (n : Fin 32) :
    val_main_v97 (F := Ideal) x0 x1 x2 x3 x4 x5 x6 x7 x8 x9 x10 x11 x12 x13 (ix2 b n) = nloss (netOf x2 x3 x4 x5 x6 x7 x8 x9 x10 x11 x12 x13) (row2 x0 b) (row3 x1 b n) := by
  rw [val_main_v97_apply, val_main_cst_9_apply, Ideal.ofBits_def, Ideal.ofBits_zero_f32, zero_add]
  unfold nloss
  refine Finset.sum_congr rfl fun d _ => ?_
  have hi : idx_main_v97 (ix2 b n) d = ix3 b n d :=
    funext fun a => Fin.ext (by match a with | ⟨0, _⟩ => rfl | ⟨1, _⟩ => rfl | ⟨2, _⟩ => rfl)
  rw [hi, val_main_v96_apply, val_main_v95_apply, Ideal.mulf_def, Ideal.subf_def, nrecon_at]
  rfl

/-- The weighted error of pair (b, n). -/
theorem pair_term (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (b : Fin 128) (n : Fin 32) :
    val_main_v106 (F := Ideal) x0 x1 x2 x3 x4 x5 x6 x7 x8 x9 x10 x11 x12 x13 (ix2 b n) = term (netOf x2 x3 x4 x5 x6 x7 x8 x9 x10 x11 x12 x13) (row2 x0 b) (row3 x1 b n) := by
  rw [val_main_v106_apply, val_main_v105_apply, Ideal.mulf_def, weight_at, nloss_at]
  rfl

/-- The reference's result: the whole loss. -/
theorem whole_loss (x0 : FVec Ideal S128x3072 .f32) (x1 : FVec Ideal S128x32x3072 .f32) (x2 : FVec Ideal S3072x1024 .f32) (x3 : FVec Ideal S1024 .f32) (x4 : FVec Ideal S1024x1024 .f32) (x5 : FVec Ideal S1024 .f32) (x6 : FVec Ideal S1024x32 .f32) (x7 : FVec Ideal S32 .f32) (x8 : FVec Ideal S32x1024 .f32) (x9 : FVec Ideal S1024 .f32) (x10 : FVec Ideal S1024x1024 .f32) (x11 : FVec Ideal S1024 .f32) (x12 : FVec Ideal S1024x3072 .f32) (x13 : FVec Ideal S3072 .f32) (i : S_.Idx) :
    val_main_v108 (F := Ideal) x0 x1 x2 x3 x4 x5 x6 x7 x8 x9 x10 x11 x12 x13 i = loss (netOf x2 x3 x4 x5 x6 x7 x8 x9 x10 x11 x12 x13) x0 x1 := by
  rw [val_main_v108_apply, Ideal.hostDivf_def, val_main_v107_apply, val_main_cst_13_apply, val_main_cst_14_apply, sum_idx2]
  simp only [Ideal.ofBits_def, pair_term]
  rfl

end Cert.Nrae.ReferenceSide

end
-- ==== Proof.lean ====
/-
  The kernel and the reference compute one loss.

  For 128 centres, each with 32 neighbours, both programs encode every centre and neighbour (three dense layers, a rectifier
  after the first two), decode each centre's code, and approximate each neighbour by the decoder's first-order expansion at its
  centre's code: the reconstruction plus the decoder's derivative applied to the difference of the two codes. The decoder is
  piecewise linear, so that derivative sends a direction through the three weight matrices and, after each of the first two,
  keeps the entries whose pre-activation at the centre's code is positive. The loss is the weighted sum of the squared errors
  of these approximations over all pairs, divided by their number.

  The kernel works on 8 centres at a time, multiplies by 0/1 indicators where the reference chooses between an entry and zero,
  narrows float formats on the way into its products, and sums first over a centre's neighbours and then over the centres; the
  reference works on all rows at once, and carries a second-order term that is a zero array times one half. On the extended
  reals a narrowing is the identity, a product with an indicator is that choice, zero times one half added to a row changes
  nothing, and a sum may be grouped either way: so both results are the one function Nrae.loss of the argument arrays. None of
  these laws asks the inputs to be finite.

  The frames are the programs' runs with the result forgotten; the kernel's idealization rewrote no operation.
-/
import proofs.«164909_j16423954940420_1_alg».proof.Defs
import proofs.«164909_j16423954940420_1_alg».proof.Proof.Gen.Kernel
import proofs.«164909_j16423954940420_1_alg».proof.Proof.Gen.Kernel.Skeleton
import proofs.«164909_j16423954940420_1_alg».proof.Proof.Gen.Kernel.Launch
import proofs.«164909_j16423954940420_1_alg».proof.Proof.Gen.Kernel.Points
import proofs.«164909_j16423954940420_1_alg».proof.Proof.Gen.Kernel.Frame
import proofs.«164909_j16423954940420_1_alg».proof.Proof.Gen.KernelIdeal
import proofs.«164909_j16423954940420_1_alg».proof.Proof.Gen.KernelIdeal.Skeleton
import proofs.«164909_j16423954940420_1_alg».proof.Proof.Gen.KernelIdeal.Launch
import proofs.«164909_j16423954940420_1_alg».proof.Proof.Gen.KernelIdeal.Points
import proofs.«164909_j16423954940420_1_alg».proof.Proof.Gen.KernelIdeal.Frame
import proofs.«164909_j16423954940420_1_alg».proof.Proof.Gen.ReferenceIdeal
import proofs.«164909_j16423954940420_1_alg».proof.Proof.Gen.Pre_finite_inputs
import proofs.«164909_j16423954940420_1_alg».proof.Proof.Gen.ReferenceIdeal.Run
import proofs.«164909_j16423954940420_1_alg».proof.Proof.Gen.ReferenceIdeal.Read
import proofs.«164909_j16423954940420_1_alg».proof.Proof.KernelArray
import proofs.«164909_j16423954940420_1_alg».proof.Proof.ReferenceLoss
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference's frame is its run with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result buffer and the reference's both end at the whole loss of
    those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Nrae.KernelSide.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq]
  funext i
  rw [Cert.Nrae.ReferenceSide.whole_loss, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
